-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S8192x256 .f32 .bf16
  ∧ IdealRules.truncf_extf.Statement Cert.KernelIdeal.S8192x2 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x8192 : Shape := ⟨2, ![16, 8192]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel

variable [Facts]

def fn {F : FTy → Type} [FloatOps F] (main_arg0 : FVec F S16x8192x256 .f32) (main_arg1 : IVec S16x8192 32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  main_v3
-- ==== Kernel.lean ====
abbrev S16x8192x256 : Shape := ⟨3, ![16, 8192, 256]⟩
abbrev S16x8192 : Shape := ⟨2, ![16, 8192]⟩
abbrev S16x1x8192 : Shape := ⟨3, ![16, 1, 8192]⟩
abbrev S2x64x256 : Shape := ⟨3, ![2, 64, 256]⟩
abbrev S2x8x64 : Shape := ⟨3, ![2, 8, 64]⟩
abbrev S1x8192x256 : Shape := ⟨3, ![1, 8192, 256]⟩
abbrev S1x1x8192 : Shape := ⟨3, ![1, 1, 8192]⟩
abbrev S1x64x256 : Shape := ⟨3, ![1, 64, 256]⟩
abbrev S1x8x64 : Shape := ⟨3, ![1, 8, 64]⟩
abbrev S64x256 : Shape := ⟨2, ![64, 256]⟩
abbrev S8x64 : Shape := ⟨2, ![8, 64]⟩
abbrev S8192x256 : Shape := ⟨2, ![8192, 256]⟩
abbrev S1x8192 : Shape := ⟨2, ![1, 8192]⟩
abbrev S64x1 : Shape := ⟨2, ![64, 1]⟩
abbrev S64x8192 : Shape := ⟨2, ![64, 8192]⟩
abbrev S8192 : Shape := ⟨1, ![8192]⟩
abbrev S8192x1 : Shape := ⟨2, ![8192, 1]⟩
abbrev S8192x2 : Shape := ⟨2, ![8192, 2]⟩
abbrev S64x2 : Shape := ⟨2, ![64, 2]⟩
abbrev S64 : Shape := ⟨1, ![64]⟩
abbrev S1x64 : Shape := ⟨2, ![1, 64]⟩
abbrev S_ : Shape := ⟨0, ![]⟩

abbrev nBuf : Space → Nat
  | .hbm => 30
  | .vmem => 13
  | .smem => 0
  | _ => 0

abbrev bufTy : (tb : Table) → Fin (tcTables nBuf tb) → BufTy
  | .hbm, ⟨0, _⟩ => ⟨S16x8192x256, .f32⟩
  | .hbm, ⟨1, _⟩ => ⟨S16x8192, .i32⟩
  | .hbm, ⟨2, _⟩ => ⟨S16x1x8192, .i32⟩
  | .hbm, ⟨3, _⟩ => ⟨S2x64x256, .f32⟩
  | .hbm, ⟨4, _⟩ => ⟨S2x8x64, .f32⟩
  | .hbm, ⟨5, _⟩ => ⟨S2x8x64, .f32⟩
  | .hbm, ⟨6, _⟩ => ⟨S_, .f32⟩
  | .hbm, ⟨7, _⟩ => ⟨S64x256, .f32⟩
  | .hbm, ⟨8, _⟩ => ⟨S_, .f32⟩
  | .hbm, ⟨9, _⟩ => ⟨S8x64, .f32⟩
  | .hbm, ⟨10, _⟩ => ⟨S1x64, .f32⟩
  | .hbm, ⟨11, _⟩ => ⟨S64, .f32⟩
  | .hbm, ⟨12, _⟩ => ⟨S_, .f32⟩
  | .hbm, ⟨13, _⟩ => ⟨S8x64, .f32⟩
  | .hbm, ⟨14, _⟩ => ⟨S1x64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x256, .f32⟩
  | .hbm, ⟨21, _⟩ => ⟨S64x256, .f32⟩
  | .hbm, ⟨22, _⟩ => ⟨S64, .f32⟩
  | .hbm, ⟨23, _⟩ => ⟨S64x256, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .local _ .vmem, ⟨0, _⟩ => ⟨S1x8192x256, .f32⟩
  | .local _ .vmem, ⟨1, _⟩ => ⟨S1x8192x256, .f32⟩
  | .local _ .vmem, ⟨2, _⟩ => ⟨S1x1x8192, .i32⟩
  | .local _ .vmem, ⟨3, _⟩ => ⟨S1x1x8192, .i32⟩
  | .local _ .vmem, ⟨4, _⟩ => ⟨S1x64x256, .f32⟩
  | .local _ .vmem, ⟨5, _⟩ => ⟨S1x64x256, .f32⟩
  | .local _ .vmem, ⟨6, _⟩ => ⟨S1x8x64, .f32⟩
  | .local _ .vmem, ⟨7, _⟩ => ⟨S1x8x64, .f32⟩
  | .local _ .vmem, ⟨8, _⟩ => ⟨S1x8x64, .f32⟩
  | .local _ .vmem, ⟨9, _⟩ => ⟨S1x8x64, .f32⟩
  | .local _ .vmem, ⟨10, _⟩ => ⟨S64x256, .f32⟩
  | .local _ .vmem, ⟨11, _⟩ => ⟨S8x64, .f32⟩
  | .local _ .vmem, ⟨12, _⟩ => ⟨S8x64, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v58 : BitVec 1 := Scalar.cmpi .eq arg1 c7_i32
  let v59 : BitVec 32 := Scalar.extui v58
  let c0_i32_23 : BitVec 32 := 0#32
  let v60 : BitVec 1 := Scalar.cmpi .ne v59 c0_i32_23
  v60

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S16x8192_S16x1x8192_0_2 : S16x8192.BroadcastsInDim S16x1x8192 (![0, 2] : Fin 2 → Fin S16x1x8192.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  iota_S64x1_d0_w32 : S64x1.Iotas .tc 32 [0]
  broadcasts_S64x1_S64x8192 : S64x1.Broadcasts S64x8192
  broadcasts_S1x8192_S64x8192 : S1x8192.Broadcasts S64x8192
  natLt_1_32 : 1 < 32
  bitsLt_bf16_f32 : FTy.bits .bf16 < FTy.bits .f32
  reduces_S8192x256_S8192 : S8192x256.Reduces [1] S8192
  shapeCasts_S8192_S8192x1 : S8192.ShapeCasts S8192x1
  concatenates_S8192x1_S8192x1_S8192x2_d1 : Shape.Concatenates [S8192x1, S8192x1] S8192x2 1
  slices_S64x2_o0_0_S64x1 : S64x2.Slices ![0, 0] S64x1
  shapeCasts_S64x1_S64 : S64x1.ShapeCasts S64
  slices_S64x2_o0_1_S64x1 : S64x2.Slices ![0, 1] S64x1
  shapeCasts_S64_S1x64 : S64.ShapeCasts S1x64
  shapeCasts_S1x64_S1x64 : S1x64.ShapeCasts S1x64
  broadcasts_S1x64_S8x64 : S1x64.Broadcasts S8x64
  shapeCasts_S64x256_S1x64x256 : S64x256.ShapeCasts S1x64x256
  inb_S1x64x256_S1x64x256_0_0_0 : ∀ a, (![0, 0, 0] : Fin 3 → Nat) a + S1x64x256.size a ≤ S1x64x256.size a
  h_S1x64x256 : 0 < S1x64x256.numel
  shapeCasts_S8x64_S1x8x64 : S8x64.ShapeCasts S1x8x64
  inb_S1x8x64_S1x8x64_0_0_0 : ∀ a, (![0, 0, 0] : Fin 3 → Nat) a + S1x8x64.size a ≤ S1x8x64.size a
  h_S1x8x64 : 0 < S1x8x64.numel
  reducesTo_S2x64x256_S64x256_d0 : S2x64x256.ReducesTo [0] S64x256
  h_S_ : 0 < S_.numel
  reducesTo_S2x8x64_S8x64_d0 : S2x8x64.ReducesTo [0] S8x64
  slices_S8x64_S1x64_0_0 : S8x64.Slices ![0, 0] S1x64
  shapeCasts_S1x64_S64 : S1x64.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  reducesTo_S64x256_S64_d1 : S64x256.ReducesTo [1] S64
  dot_S64x8192_S8192x256_S64x256_1_0_0_1_n_n_wf : DotDims.WF S64x8192 S8192x256 S64x256 [1] [0] [0] [1] [] []
  dot_S64x8192_S8192x2_S64x2_1_0_0_1_n_n_wf : DotDims.WF S64x8192 S8192x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x256.size a ≤ S16x8192x256.size a
  hwx0_0 : ∀ i : grid0.Coords, EltTy.bits .f32 = 32 ∨ (Rect.block (s := S16x8192x256) S1x8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S16x1x8192.size a
  hwx0_1 : ∀ i : grid0.Coords, EltTy.bits .i32 = 32 ∨ (Rect.block (s := S16x1x8192) S1x1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S2x64x256.size a
  hwx0_2 : ∀ i : grid0.Coords, EltTy.bits .f32 = 32 ∨ (Rect.block (s := S2x64x256) S1x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64.size a ≤ S2x8x64.size a
  hwx0_3 : ∀ i : grid0.Coords, EltTy.bits .f32 = 32 ∨ (Rect.block (s := S2x8x64) S1x8x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x64.size a ≤ S2x8x64.size a
  hwx0_4 : ∀ i : grid0.Coords, EltTy.bits .f32 = 32 ∨ (Rect.block (s := S2x8x64) S1x8x64.size (cc0_transform_4 i) (hinb0_4 i)).WholeWords (EltTy.packing .f32)

variable [Facts₀]

def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf
def dot_S64x8192_S8192x2_S64x2_1_0_0_1_n_n : DotDims S64x8192 S8192x2 S64x2 where
  lhsContracting := [1]
  rhsContracting := [0]
  lhsNonContracting := [0]
  rhsNonContracting := [1]
  lhsBatch := []
  rhsBatch := []
  wf := dot_S64x8192_S8192x2_S64x2_1_0_0_1_n_n_wf

abbrev win0_0 : Pipeline.Window sig grid0 :=
  Pipeline.Window.ofSpec (Memref.whole main_arg0) S1x8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x8192x256 : Shape := ⟨3, ![16, 8192, 256]⟩
abbrev S16x8192 : Shape := ⟨2, ![16, 8192]⟩
abbrev S131072x256 : Shape := ⟨2, ![131072, 256]⟩
abbrev S131072 : Shape := ⟨1, ![131072]⟩
abbrev S_ : Shape := ⟨0, ![]⟩
abbrev S64 : Shape := ⟨1, ![64]⟩
abbrev S131072x1 : Shape := ⟨2, ![131072, 1]⟩
abbrev S64x256 : Shape := ⟨2, ![64, 256]⟩
abbrev S64x1 : Shape := ⟨2, ![64, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x8192, .i32⟩
  | .hbm, ⟨2, _⟩ => ⟨S131072x256, .f32⟩
  | .hbm, ⟨3, _⟩ => ⟨S131072, .i32⟩
  | .hbm, ⟨4, _⟩ => ⟨S_, .f32⟩
  | .hbm, ⟨5, _⟩ => ⟨S131072, .f32⟩
  | .hbm, ⟨6, _⟩ => ⟨S_, .f32⟩
  | .hbm, ⟨7, _⟩ => ⟨S64, .f32⟩
  | .hbm, ⟨8, _⟩ => ⟨S131072x1, .i32⟩
  | .hbm, ⟨9, _⟩ => ⟨S64, .f32⟩
  | .hbm, ⟨10, _⟩ => ⟨S_, .f32⟩
  | .hbm, ⟨11, _⟩ => ⟨S64x256, .f32⟩
  | .hbm, ⟨12, _⟩ => ⟨S131072x1, .i32⟩
  | .hbm, ⟨13, _⟩ => ⟨S64x256, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64x256, .f32⟩
  | .hbm, ⟨19, _⟩ => ⟨S64x256, .f32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072, .i32⟩
  | .hbm, ⟨27, _⟩ => ⟨S131072x1, .i32⟩
  | .hbm, ⟨28, _⟩ => ⟨S131072x256, .f32⟩
  | .hbm, ⟨29, _⟩ => ⟨S131072x256, .f32⟩
  | .hbm, ⟨30, _⟩ => ⟨S131072x256, .f32⟩
  | .hbm, ⟨31, _⟩ => ⟨S_, .f32⟩
  | .hbm, ⟨32, _⟩ => ⟨S131072, .f32⟩
  | .hbm, ⟨33, _⟩ => ⟨S_, .f32⟩
  | .hbm, ⟨34, _⟩ => ⟨S64, .f32⟩
  | .hbm, ⟨35, _⟩ => ⟨S131072x1, .i32⟩
  | .hbm, ⟨36, _⟩ => ⟨S64, .f32⟩
  | .hbm, ⟨37, _⟩ => ⟨S64, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  shapeCasts_S16x8192x256_S131072x256 : S16x8192x256.ShapeCasts S131072x256
  shapeCasts_S16x8192_S131072 : S16x8192.ShapeCasts S131072
  bcast_S_S131072 : S_.BroadcastsInDim S131072 (![] : Fin 0 → Fin S131072.rank)
  bcast_S_S64 : S_.BroadcastsInDim S64 (![] : Fin 0 → Fin S64.rank)
  bcast_S131072_S131072x1_0 : S131072.BroadcastsInDim S131072x1 (![0] : Fin 1 → Fin S131072x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  reducesTo_S131072x256_S131072_d1 : S131072x256.ReducesTo [1] S131072
  h_S_ : 0 < S_.numel
  scatter_S64_S131072x1_S131072_n_0_0_1_wf : ScatterDims.WF S64 S131072x1 S131072 [] [0] [0] 1
  scatter_S64x256_S131072x1_S131072x256_1_0_0_1_wf : ScatterDims.WF S64x256 S131072x1 S131072x256 [1] [0] [0] 1
  gather_S64x256_S131072x1_S131072x256_1_0_n_n_0_1_1256_wf : GatherDims.WF S64x256 S131072x1 S131072x256 [1] [0] [] [0] [] 1 ![1, 256]

variable [Facts₀]

def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def scatter_S64x256_S131072x1_S131072x256_1_0_0_1 : ScatterDims S64x256 S131072x1 S131072x256 where
  updateWindowDims := [1]
  insertedWindowDims := [0]
  scatterDimsToOperandDims := [0]
  indexVectorDim := 1
  wf := scatter_S64x256_S131072x1_S131072x256_1_0_0_1_wf
def gather_S64x256_S131072x1_S131072x256_1_0_n_n_0_1_1256 : GatherDims S64x256 S131072x1 S131072x256 where
  offsetDims := [1]
  collapsedSliceDims := [0]
  operandBatchingDims := []
  startIndicesBatchingDims := []
  startIndexMap := [0]
  indexVectorDim := 1
  sliceSizes := ![1, 256]
  wf := gather_S64x256_S131072x1_S131072x256_1_0_n_n_0_1_1256_wf

class Facts : Prop extends Facts₀ where

variable [Facts]
-- ==== Proof.ClassStats.lean ====
/-
  Per-class statistics of a finite family of rows, over the reals.

  A family of rows `z i : δ → ℝ` and a class `mem` of rows. The class's count, its coordinatewise total, the total of the
  rows' squared norms, the count clamped below by one, the mean (total over clamped count), and two expressions of
  the within-class variance:

    one pass:  max (Σ‖zᵢ‖² / n − ‖μ‖², 0)
    two pass:  (Σ ‖zᵢ − μ‖²) / n

  They agree. On an empty class every sum is zero and both sides are 0. On a class of N ≥ 1 rows the clamped count is
  N, the total is N·μ, so Σ‖zᵢ − μ‖² = Σ‖zᵢ‖² − 2 μ·(Nμ) + N‖μ‖² = Σ‖zᵢ‖² − N‖μ‖², and dividing by N gives the one-pass
  expression, which is nonnegative because the left side is a sum of squares over a positive number.
-/
import Mathlib.Data.Real.Basic
import Mathlib.Algebra.BigOperators.Ring.Finset
import Mathlib.Algebra.BigOperators.Field
import Mathlib.Algebra.Order.BigOperators.Group.Finset
import Mathlib.Tactic.Ring
import Mathlib.Tactic.Linarith
import Mathlib.Tactic.FieldSimp
import Mathlib.Tactic.Positivity

noncomputable section

namespace Cert.ClassStats

open Finset

variable {ι δ : Type*} [Fintype ι] [Fintype δ]
variable (mem : ι → Prop) [DecidablePred mem] (z : ι → δ → ℝ)

/-- How many rows are in the class. -/
def cnt : ℝ := ∑ i, if mem i then (1 : ℝ) else 0
/-- The class's total in coordinate `d`. -/
def tot (d : δ) : ℝ := ∑ i, if mem i then z i d else 0
/-- The total of the squared norms of the class's rows. -/
def sq : ℝ := ∑ i, if mem i then ∑ d, z i d * z i d else 0
/-- The count, clamped below by one. -/
def safe : ℝ := max (cnt mem) 1
/-- The class's mean in coordinate `d` (the total over the clamped count). -/
def mean (d : δ) : ℝ := tot mem z d / safe mem
/-- The within-class variance in one pass: mean squared norm less the squared norm of the mean, clamped at zero. -/
def varOnePass : ℝ := max (sq mem z / safe mem - ∑ d, mean mem z d * mean mem z d) 0
/-- The within-class variance in two passes: the mean squared distance of the class's rows to the class's mean. -/
def varTwoPass : ℝ :=
  (∑ i, if mem i then ∑ d, (z i d - mean mem z d) * (z i d - mean mem z d) else 0) / safe mem

theorem cnt_eq_card : cnt mem = ((univ.filter mem).card : ℝ) := by
  unfold cnt
  rw [← Finset.sum_filter, Finset.sum_const, nsmul_eq_mul, mul_one]

theorem safe_pos : 0 < safe mem := lt_of_lt_of_le one_pos (le_max_right _ _)

theorem safe_ne : safe mem ≠ 0 := (safe_pos mem).ne'

theorem cnt_nonneg : 0 ≤ cnt mem := by rw [cnt_eq_card]; positivity

/-- A nonempty class has at least one row, so the clamp does nothing. -/
theorem safe_eq_cnt (h : (univ.filter mem).Nonempty) : safe mem = cnt mem := by
  unfold safe
  rw [cnt_eq_card]
  apply max_eq_left
  have : 1 ≤ (univ.filter mem).card := Finset.card_pos.mpr h
  exact_mod_cast this

/-- The two expressions of the within-class variance agree. -/
theorem varOnePass_eq_varTwoPass : varOnePass mem z = varTwoPass mem z := by
  unfold varOnePass varTwoPass
  rcases (univ.filter mem).eq_empty_or_nonempty with he | hne
  · -- no row in the class: every sum is zero
    have hno : ∀ i, ¬ mem i := fun i hi => by
      have : i ∈ univ.filter mem := by simp [hi]
      rw [he] at this; exact absurd this (Finset.notMem_empty _)
    have htot : ∀ d, tot mem z d = 0 := fun d => by
      unfold tot; exact Finset.sum_eq_zero fun i _ => by rw [if_neg (hno i)]
    have hmean : ∀ d, mean mem z d = 0 := fun d => by unfold mean; rw [htot, zero_div]
    have hsq : sq mem z = 0 := by
      unfold sq; exact Finset.sum_eq_zero fun i _ => by rw [if_neg (hno i)]
    have h2 : (∑ i, if mem i then ∑ d, (z i d - mean mem z d) * (z i d - mean mem z d) else 0) = 0 :=
      Finset.sum_eq_zero fun i _ => by rw [if_neg (hno i)]
    rw [h2, hsq]
    simp [hmean]
  · -- N ≥ 1 rows
    have hs : safe mem = cnt mem := safe_eq_cnt mem hne
    have hpos : 0 < safe mem := safe_pos mem
    set N := safe mem with hN
    have htot : ∀ d, tot mem z d = N * mean mem z d := fun d => by
      unfold mean; rw [← hN]; field_simp
    -- expand the squared distances
    have hexp : (∑ i, if mem i then ∑ d, (z i d - mean mem z d) * (z i d - mean mem z d) else 0)
        = sq mem z - N * ∑ d, mean mem z d * mean mem z d := by
      have h1 : ∀ i, (if mem i then ∑ d, (z i d - mean mem z d) * (z i d - mean mem z d) else 0)
          = (if mem i then ∑ d, z i d * z i d else 0)
            - 2 * (∑ d, mean mem z d * (if mem i then z i d else 0))
            + (if mem i then (1 : ℝ) else 0) * ∑ d, mean mem z d * mean mem z d := by
        intro i
        by_cases hi : mem i
        · simp only [if_pos hi, one_mul]
          rw [Finset.mul_sum, ← Finset.sum_sub_distrib, ← Finset.sum_add_distrib]
          exact Finset.sum_congr rfl fun d _ => by ring
        · simp only [if_neg hi, mul_zero, Finset.sum_const_zero, zero_mul]; ring
      rw [Finset.sum_congr rfl fun i _ => h1 i, Finset.sum_add_distrib, Finset.sum_sub_distrib,
        ← Finset.mul_sum, Finset.sum_comm, ← Finset.sum_mul]
      have h3 : ∀ d, (∑ i, mean mem z d * (if mem i then z i d else 0)) = mean mem z d * (N * mean mem z d) := fun d => by
        rw [← Finset.mul_sum, ← htot]; rfl
      rw [Finset.sum_congr rfl fun d _ => h3 d]
      have h4 : (∑ i, if mem i then (1 : ℝ) else 0) = N := by rw [hs]; rfl
      rw [h4]
      have h5 : (∑ d, mean mem z d * (N * mean mem z d)) = N * ∑ d, mean mem z d * mean mem z d := by
        rw [Finset.mul_sum]; exact Finset.sum_congr rfl fun d _ => by ring
      rw [h5]
      unfold sq
      ring
    have hnn : 0 ≤ (∑ i, if mem i then ∑ d, (z i d - mean mem z d) * (z i d - mean mem z d) else 0) :=
      Finset.sum_nonneg fun i _ => by
        split_ifs
        · exact Finset.sum_nonneg fun d _ => mul_self_nonneg _
        · exact le_refl _
    have hval : sq mem z / N - ∑ d, mean mem z d * mean mem z d
        = (∑ i, if mem i then ∑ d, (z i d - mean mem z d) * (z i d - mean mem z d) else 0) / N := by
      rw [hexp]; field_simp
    rw [hval]
    exact max_eq_left (div_nonneg hnn hpos.le)

end Cert.ClassStats

end
-- ==== Proof.Stats.lean ====
/-
  The per-class statistics of 16 × 8192 rows of 256 reals, each row carrying an integer class, for classes 0 … 63:
  the instance of `ClassStats` both programs compute, and the partial sums the kernel accumulates.

  The kernel walks the 16 batch rows in two runs of eight (batch rows 0–7, then 8–15); after batch row `t` its
  accumulators hold the sums over the batch rows of `t`'s run up to `t` (`win f t`: the sum of `f` over
  `8·⌊t/8⌋ ≤ b ≤ t`). A run starts afresh at its first row (`win_first`), grows by one row at the others
  (`win_next`), and the two completed runs together are all sixteen rows (`win_split`).
-/
import proofs.«409659_j28166395527342_3_alg».proof.Proof.ClassStats
import Mathlib.Algebra.BigOperators.Fin
import Mathlib.Data.Fintype.BigOperators
import Mathlib.Tactic.FinCases

noncomputable section

namespace Cert.Stats

open Finset

/-- A row: its batch row and its position in it. -/
abbrev Row := Fin 16 × Fin 8192

/-- The rows of class `k`, the classes read as signed integers (a class outside 0 … 63 is in no class). -/
def mem (κ : Fin 16 → Fin 8192 → ℤ) (k : Fin 64) : Row → Prop := fun i => κ i.1 i.2 = (k.val : ℤ)

instance (κ : Fin 16 → Fin 8192 → ℤ) (k : Fin 64) : DecidablePred (mem κ k) :=
  fun i => inferInstanceAs (Decidable (κ i.1 i.2 = (k.val : ℤ)))

/-- The rows' data. -/
def rows (zr : Fin 16 → Fin 8192 → Fin 256 → ℝ) : Row → Fin 256 → ℝ := fun i d => zr i.1 i.2 d

variable (zr : Fin 16 → Fin 8192 → Fin 256 → ℝ) (κ : Fin 16 → Fin 8192 → ℤ)

def count (k : Fin 64) : ℝ := ClassStats.cnt (mem κ k)
def total (k : Fin 64) (d : Fin 256) : ℝ := ClassStats.tot (mem κ k) (rows zr) d
def sqsum (k : Fin 64) : ℝ := ClassStats.sq (mem κ k) (rows zr)
def safe (k : Fin 64) : ℝ := ClassStats.safe (mem κ k)
def centroid (k : Fin 64) (d : Fin 256) : ℝ := ClassStats.mean (mem κ k) (rows zr) d
def varOne (k : Fin 64) : ℝ := ClassStats.varOnePass (mem κ k) (rows zr)
def varTwo (k : Fin 64) : ℝ := ClassStats.varTwoPass (mem κ k) (rows zr)

theorem varOne_eq_varTwo (k : Fin 64) : varOne zr κ k = varTwo zr κ k :=
  ClassStats.varOnePass_eq_varTwoPass _ _

theorem safe_eq (k : Fin 64) : safe κ k = max (count κ k) 1 := rfl
theorem safe_pos (k : Fin 64) : 0 < safe κ k := ClassStats.safe_pos _
theorem centroid_eq (k : Fin 64) (d : Fin 256) : centroid zr κ k d = total zr κ k d / safe κ k := rfl
theorem varOne_eq (k : Fin 64) :
    varOne zr κ k = max (sqsum zr κ k / safe κ k - ∑ d, centroid zr κ k d * centroid zr κ k d) 0 := rfl
theorem varTwo_eq (k : Fin 64) :
    varTwo zr κ k = (∑ i : Row, if κ i.1 i.2 = (k.val : ℤ)
      then ∑ d, (zr i.1 i.2 d - centroid zr κ k d) * (zr i.1 i.2 d - centroid zr κ k d) else 0) / safe κ k := rfl

/-! ## One batch row's contribution -/

def rowCount (b : Fin 16) (k : Fin 64) : ℝ := ∑ s, if κ b s = (k.val : ℤ) then (1 : ℝ) else 0
def rowTotal (b : Fin 16) (k : Fin 64) (d : Fin 256) : ℝ := ∑ s, if κ b s = (k.val : ℤ) then zr b s d else 0
def rowSq (b : Fin 16) (k : Fin 64) : ℝ := ∑ s, if κ b s = (k.val : ℤ) then ∑ d, zr b s d * zr b s d else 0

theorem count_eq_rows (k : Fin 64) : count κ k = ∑ b, rowCount κ b k := by
  unfold count ClassStats.cnt rowCount; rw [Fintype.sum_prod_type]; rfl
theorem total_eq_rows (k : Fin 64) (d : Fin 256) : total zr κ k d = ∑ b, rowTotal zr κ b k d := by
  unfold total ClassStats.tot rowTotal; rw [Fintype.sum_prod_type]; rfl
theorem sqsum_eq_rows (k : Fin 64) : sqsum zr κ k = ∑ b, rowSq zr κ b k := by
  unfold sqsum ClassStats.sq rowSq; rw [Fintype.sum_prod_type]; rfl

/-! ## The running sums of a run of eight batch rows -/

/-- The sum of `f` over the batch rows of `t`'s run of eight, up to `t`. -/
def win (f : Fin 16 → ℝ) (t : ℕ) : ℝ := ∑ b : Fin 16, if 8 * (t / 8) ≤ b.val ∧ b.val ≤ t then f b else 0

theorem win_first (f : Fin 16 → ℝ) (t : Fin 16) (h : t.val % 8 = 0) : win f t.val = f t := by
  unfold win
  rw [Finset.sum_eq_single t]
  · rw [if_pos ⟨by omega, le_refl _⟩]
  · intro b _ hb
    rw [if_neg]
    rintro ⟨h1, h2⟩
    exact hb (Fin.ext (by omega))
  · intro h'; exact absurd (Finset.mem_univ t) h'

theorem win_next (f : Fin 16 → ℝ) (t : Fin 16) (h : ¬ t.val % 8 = 0) : win f t.val = win f (t.val - 1) + f t := by
  unfold win
  have hd : 8 * (t.val / 8) = 8 * ((t.val - 1) / 8) := by omega
  rw [← Finset.sum_erase_add _ _ (Finset.mem_univ t), ← Finset.sum_erase_add (a := t) (s := univ)
    (f := fun b : Fin 16 => if 8 * ((t.val - 1) / 8) ≤ b.val ∧ b.val ≤ t.val - 1 then f b else 0) (Finset.mem_univ t)]
  rw [if_pos ⟨by omega, le_refl _⟩, if_neg (by omega), add_zero]
  congr 1
  refine Finset.sum_congr rfl fun b hb => ?_
  have hne : b ≠ t := (Finset.mem_erase.mp hb).1
  have hv : b.val ≠ t.val := fun e => hne (Fin.ext e)
  by_cases hc : 8 * (t.val / 8) ≤ b.val ∧ b.val ≤ t.val
  · rw [if_pos hc, if_pos ⟨by omega, by omega⟩]
  · rw [if_neg hc, if_neg (by omega)]

theorem win_split (f : Fin 16 → ℝ) : ∑ b, f b = win f 7 + win f 15 := by
  unfold win
  rw [← Finset.sum_add_distrib]
  refine Finset.sum_congr rfl fun b _ => ?_
  have hb := b.isLt
  by_cases h : b.val ≤ 7
  · rw [if_pos ⟨by omega, h⟩, if_neg (by omega), add_zero]
  · rw [if_neg (by omega), if_pos ⟨by omega, by omega⟩, zero_add]

/-- What the kernel's three accumulators hold after batch row `t`. -/
def accCount (t : ℕ) (k : Fin 64) : ℝ := win (fun b => rowCount κ b k) t
def accTotal (t : ℕ) (k : Fin 64) (d : Fin 256) : ℝ := win (fun b => rowTotal zr κ b k d) t
def accSq (t : ℕ) (k : Fin 64) : ℝ := win (fun b => rowSq zr κ b k) t

theorem count_split (k : Fin 64) : count κ k = accCount κ 7 k + accCount κ 15 k :=
  (count_eq_rows κ k).trans (win_split _)
theorem total_split (k : Fin 64) (d : Fin 256) : total zr κ k d = accTotal zr κ 7 k d + accTotal zr κ 15 k d :=
  (total_eq_rows zr κ k d).trans (win_split _)
theorem sqsum_split (k : Fin 64) : sqsum zr κ k = accSq zr κ 7 k + accSq zr κ 15 k :=
  (sqsum_eq_rows zr κ k).trans (win_split _)

end Cert.Stats

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.Finite.lean ====
/-
  The precondition, read back: when every entry of the float input compares in absolute value below +∞, every entry
  is a real number.
-/
import proofs.«409659_j28166395527342_3_alg».proof.Pre_finite_inputs
import proofs.«409659_j28166395527342_3_alg».proof.Proof.LibERealRows
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- Under the precondition every entry of the float input is a real. -/
theorem real_of_pre [Cert.Pre_finite_inputs.Facts] (x0 : FVec Ideal S16x8192x256 .f32) (x1 : IVec S16x8192 32)
    (h : Cert.Pre_finite_inputs.fn (F := Ideal) x0 x1 = fun _ => 1#1) (i : S16x8192x256.Idx) :
    ∃ r : ℝ, (x0 i : EReal) = (r : EReal) := by
  have h0 := congrFun h ValueIdx.ix0
  dsimp only [Cert.Pre_finite_inputs.fn] at h0
  have hi := Host.reduce_andi_all _ _ _ _ _ h0 i
  apply Cert.ERealRows.real_of_abs_lt_inf
  exact hi

end Cert.Finite

end
-- ==== Proof.KSteps.lean ====
/-
  The kernel's body, named by what it does to its three accumulators at one grid point.

  At a point the body holds a batch row's block `x0` (8192 rows of 256 numbers) and its classes `x1`. It adds to the
  totals accumulator the product of the 64 × 8192 class-indicator matrix with the block (`step0`), to the counts
  accumulator the indicator's row sums (`step1`) and to the squared-norms accumulator the indicator applied to the
  rows' squared norms (`step2`), the last two broadcast over the accumulators' eight rows; at a run's first point
  the accumulators start from zero (`zero0`, `zero1`, `zero2`), and at its last point they are copied out
  (`emit0`, `emit1`, `emit2`).
-/
import proofs.«409659_j28166395527342_3_alg».proof.Proof.Gen.KernelIdeal.Skeleton
import Idealize.ShloMosaic.Lib.ValueIdx

noncomputable section

open Idealize.ShloMosaic Idealize.ShloMosaic.TcCoe Idealize.SL.Sem
open Idealize.ShloMosaic.ValueIdx

namespace Cert.KernelIdeal.KV

open Cert.KernelIdeal Cert.KernelIdeal.Gen

variable {F : FTy → Type} [FloatOps F]

def zero0 : Vec F S64x256 .f32 := k0_pay7
def zero1 : Vec F S8x64 .f32 := k0_pay8
def zero2 : Vec F S8x64 .f32 := k0_pay9

/-- The totals accumulator after one more block. -/
def step0 (x0 : Vec F S1x8192x256 .f32) (x1 : Vec F S1x1x8192 .i32) (s0 : Vec F S64x256 .f32) : Vec F S64x256 .f32 :=
  k0_pay1 (k0_pay15 x0 x1 s0)
/-- The counts accumulator after one more block. -/
def step1 (x0 : Vec F S1x8192x256 .f32) (x1 : Vec F S1x1x8192 .i32) (s1 : Vec F S8x64 .f32) : Vec F S8x64 .f32 :=
  k0_pay2 (k0_pay14 x0 x1) s1
/-- The squared-norms accumulator after one more block. -/
def step2 (x0 : Vec F S1x8192x256 .f32) (x1 : Vec F S1x1x8192 .i32) (s2 : Vec F S8x64 .f32) : Vec F S8x64 .f32 :=
  k0_pay3 (k0_pay13 x0 x1) s2

def emit0 (s0 : Vec F S64x256 .f32) : Vec F S1x64x256 .f32 := k0_pay4 s0
def emit1 (s1 : Vec F S8x64 .f32) : Vec F S1x8x64 .f32 := k0_pay5 s1
def emit2 (s2 : Vec F S8x64 .f32) : Vec F S1x8x64 .f32 := k0_pay6 s2

end Cert.KernelIdeal.KV

end
-- ==== Proof.KPieces.lean ====
/-
  What each control case of the kernel's body leaves in its accumulators and outputs, as values.

  Case A (a run's first point): the accumulators are reset and take the point's block. Case B (a middle point): they
  take the block over what the point before left. Case C (a run's last point): as B, and the three outputs receive
  copies of the accumulators.
-/
import proofs.«409659_j28166395527342_3_alg».proof.Proof.Gen.KernelIdeal.Frame
import proofs.«409659_j28166395527342_3_alg».proof.Proof.KSteps
import Idealize.ShloMosaic.Lib.Pipeline.Value
import Idealize.ShloMosaic.Lib.Tactic

noncomputable section

open Idealize.ShloMosaic Idealize.ShloMosaic.TcCoe Idealize.SL.Sem
open Idealize.ShloMosaic.ValueIdx

namespace Cert.KernelIdeal.KV

open Cert.KernelIdeal Cert.KernelIdeal.Gen

variable {F : FTy → Type} [FloatOps F]
variable (c : Dev nD) (i : grid0.Coords) (a2 : Memref sig .tc .vmem S1x8192x256 .f32) (h2 : a2.IsWhole) (a3 : Memref sig .tc .vmem S1x1x8192 .i32) (h3 : a3.IsWhole) (a4 : Memref sig .tc .vmem S1x64x256 .f32) (h4 : a4.IsWhole) (a5 : Memref sig .tc .vmem S1x8x64 .f32) (h5 : a5.IsWhole) (a6 : Memref sig .tc .vmem S1x8x64 .f32) (h6 : a6.IsWhole) (a7 : Memref sig .tc .vmem S64x256 .f32) (h7 : a7.IsWhole) (a8 : Memref sig .tc .vmem S8x64 .f32) (h8 : a8.IsWhole) (a9 : Memref sig .tc .vmem S8x64 .f32) (h9 : a9.IsWhole)

/-- The zero offsets of a rank-2 whole-block rectangle, spelt as a constant function. -/
private theorem hz2 : (![0, 0] : Fin 2 → Nat) = fun _ => 0 := funext fun a => by fin_cases a <;> rfl
/-- The zero offsets of a rank-3 whole-block rectangle, spelt as a constant function. -/
private theorem hz3 : (![0, 0, 0] : Fin 3 → Nat) = fun _ => 0 := funext fun a => by fin_cases a <;> rfl

/-! ## Case A

The reset stores the zero block over the whole accumulator; the load that follows reads that zero block back, and the
sum stored last, again over the whole accumulator, is what remains: one step from zero. -/

theorem acc0_A (hc0 : cond0_0 i) (hc1 : ¬cond0_1 i) (x0 : Vec F S1x8192x256 .f32) (x1 : Vec F S1x1x8192 .i32) :
    sout0_A_0 c i a2 h2 a3 h3 a4 h4 a5 h5 a6 h6 a7 h7 a8 h8 a9 h9 hc0 hc1 x0 x1 = step0 x0 x1 zero0 := by
  unfold sout0_A_0
  rw [View.read_writes_eq_canon _ _ _ (scover0_A_0 c i a2 h2 a3 h3 a4 h4 a5 h5 a6 h6 a7 h7 a8 h8 a9 h9 hc0 hc1 x0 x1)]
  unfold kernelRun0_A
  dsimp only
  sl_unfold_words
  rw [View.canon_cons_unit_zero (S := S64x256) hz2, View.readCov_unit_zero (S := S64x256) _ hz2]
  unfold step0 zero0
  simp only [View.readAt_eq_ld, h2.read_unread, h3.read_unread,
    View.ld_unit_zero (S := S1x8192x256) hz3, View.ld_unit_zero (S := S1x1x8192) hz3]

theorem acc1_A (hc0 : cond0_0 i) (hc1 : ¬cond0_1 i) (x0 : Vec F S1x8192x256 .f32) (x1 : Vec F S1x1x8192 .i32) :
    sout0_A_1 c i a2 h2 a3 h3 a4 h4 a5 h5 a6 h6 a7 h7 a8 h8 a9 h9 hc0 hc1 x0 x1 = step1 x0 x1 zero1 := by
  unfold sout0_A_1
  rw [View.read_writes_eq_canon _ _ _ (scover0_A_1 c i a2 h2 a3 h3 a4 h4 a5 h5 a6 h6 a7 h7 a8 h8 a9 h9 hc0 hc1 x0 x1)]
  unfold kernelRun0_A
  dsimp only
  sl_unfold_words
  rw [View.canon_cons_unit_zero (S := S8x64) hz2, View.readCov_unit_zero (S := S8x64) _ hz2]
  unfold step1 zero1
  simp only [View.readAt_eq_ld, h2.read_unread, h3.read_unread,
    View.ld_unit_zero (S := S1x8192x256) hz3, View.ld_unit_zero (S := S1x1x8192) hz3]

theorem acc2_A (hc0 : cond0_0 i) (hc1 : ¬cond0_1 i) (x0 : Vec F S1x8192x256 .f32) (x1 : Vec F S1x1x8192 .i32) :
    sout0_A_2 c i a2 h2 a3 h3 a4 h4 a5 h5 a6 h6 a7 h7 a8 h8 a9 h9 hc0 hc1 x0 x1 = step2 x0 x1 zero2 := by
  unfold sout0_A_2
  rw [View.read_writes_eq_canon _ _ _ (scover0_A_2 c i a2 h2 a3 h3 a4 h4 a5 h5 a6 h6 a7 h7 a8 h8 a9 h9 hc0 hc1 x0 x1)]
  unfold kernelRun0_A
  dsimp only
  sl_unfold_words
  rw [View.canon_cons_unit_zero (S := S8x64) hz2, View.readCov_unit_zero (S := S8x64) _ hz2]
  unfold step2 zero2
  simp only [View.readAt_eq_ld, h2.read_unread, h3.read_unread,
    View.ld_unit_zero (S := S1x8192x256) hz3, View.ld_unit_zero (S := S1x1x8192) hz3]

/-! ## Case B

No reset: each accumulator is loaded whole (reading what the point before left), and one store over the whole
accumulator leaves the step's value. -/

theorem acc0_B (hc0 : ¬cond0_0 i) (hc1 : ¬cond0_1 i) (x0 : Vec F S1x8192x256 .f32) (x1 : Vec F S1x1x8192 .i32) (xs0 : Vec F S64x256 .f32) (xs1 : Vec F S8x64 .f32) (xs2 : Vec F S8x64 .f32) :
    sout0_B_0 c i a2 h2 a3 h3 a4 h4 a5 h5 a6 h6 a7 h7 a8 h8 a9 h9 hc0 hc1 x0 x1 xs0 xs1 xs2 = step0 x0 x1 xs0 := by
  unfold sout0_B_0
  rw [View.read_writes_eq_canon _ _ _ (scover0_B_0 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz2]
  unfold step0
  simp only [View.readAt_eq_ld, h2.read_unread, h3.read_unread, h7.read_unread,
    View.ld_unit_zero (S := S1x8192x256) hz3, View.ld_unit_zero (S := S1x1x8192) hz3, View.ld_unit_zero (S := S64x256) hz2]

theorem acc1_B (hc0 : ¬cond0_0 i) (hc1 : ¬cond0_1 i) (x0 : Vec F S1x8192x256 .f32) (x1 : Vec F S1x1x8192 .i32) (xs0 : Vec F S64x256 .f32) (xs1 : Vec F S8x64 .f32) (xs2 : Vec F S8x64 .f32) :
    sout0_B_1 c i a2 h2 a3 h3 a4 h4 a5 h5 a6 h6 a7 h7 a8 h8 a9 h9 hc0 hc1 x0 x1 xs0 xs1 xs2 = step1 x0 x1 xs1 := by
  unfold sout0_B_1
  rw [View.read_writes_eq_canon _ _ _ (scover0_B_1 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz2]
  unfold step1
  simp only [View.readAt_eq_ld, h2.read_unread, h3.read_unread, h8.read_unread,
    View.ld_unit_zero (S := S1x8192x256) hz3, View.ld_unit_zero (S := S1x1x8192) hz3, View.ld_unit_zero (S := S8x64) hz2]

theorem acc2_B (hc0 : ¬cond0_0 i) (hc1 : ¬cond0_1 i) (x0 : Vec F S1x8192x256 .f32) (x1 : Vec F S1x1x8192 .i32) (xs0 : Vec F S64x256 .f32) (xs1 : Vec F S8x64 .f32) (xs2 : Vec F S8x64 .f32) :
    sout0_B_2 c i a2 h2 a3 h3 a4 h4 a5 h5 a6 h6 a7 h7 a8 h8 a9 h9 hc0 hc1 x0 x1 xs0 xs1 xs2 = step2 x0 x1 xs2 := by
  unfold sout0_B_2
  rw [View.read_writes_eq_canon _ _ _ (scover0_B_2 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz2]
  unfold step2
  simp only [View.readAt_eq_ld, h2.read_unread, h3.read_unread, h9.read_unread,
    View.ld_unit_zero (S := S1x8192x256) hz3, View.ld_unit_zero (S := S1x1x8192) hz3, View.ld_unit_zero (S := S8x64) hz2]

/-! ## Case C

The accumulators as in case B. Each output then receives, in one store over its whole block, the reshaped copy of the
accumulator as loaded back after its store: that load reads the step's value. -/

theorem acc0_C (hc0 : ¬cond0_0 i) (hc1 : cond0_1 i) (x0 : Vec F S1x8192x256 .f32) (x1 : Vec F S1x1x8192 .i32) (xs0 : Vec F S64x256 .f32) (xs1 : Vec F S8x64 .f32) (xs2 : Vec F S8x64 .f32) :
    sout0_C_0 c i a2 h2 a3 h3 a4 h4 a5 h5 a6 h6 a7 h7 a8 h8 a9 h9 hc0 hc1 x0 x1 xs0 xs1 xs2 = step0 x0 x1 xs0 := by
  unfold sout0_C_0
  rw [View.read_writes_eq_canon _ _ _ (scover0_C_0 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz2]
  unfold step0
  simp only [View.readAt_eq_ld, h2.read_unread, h3.read_unread, h7.read_unread,
    View.ld_unit_zero (S := S1x8192x256) hz3, View.ld_unit_zero (S := S1x1x8192) hz3, View.ld_unit_zero (S := S64x256) hz2]

theorem acc1_C (hc0 : ¬cond0_0 i) (hc1 : cond0_1 i) (x0 : Vec F S1x8192x256 .f32) (x1 : Vec F S1x1x8192 .i32) (xs0 : Vec F S64x256 .f32) (xs1 : Vec F S8x64 .f32) (xs2 : Vec F S8x64 .f32) :
    sout0_C_1 c i a2 h2 a3 h3 a4 h4 a5 h5 a6 h6 a7 h7 a8 h8 a9 h9 hc0 hc1 x0 x1 xs0 xs1 xs2 = step1 x0 x1 xs1 := by
  unfold sout0_C_1
  rw [View.read_writes_eq_canon _ _ _ (scover0_C_1 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz2]
  unfold step1
  simp only [View.readAt_eq_ld, h2.read_unread, h3.read_unread, h8.read_unread,
    View.ld_unit_zero (S := S1x8192x256) hz3, View.ld_unit_zero (S := S1x1x8192) hz3, View.ld_unit_zero (S := S8x64) hz2]

theorem acc2_C (hc0 : ¬cond0_0 i) (hc1 : cond0_1 i) (x0 : Vec F S1x8192x256 .f32) (x1 : Vec F S1x1x8192 .i32) (xs0 : Vec F S64x256 .f32) (xs1 : Vec F S8x64 .f32) (xs2 : Vec F S8x64 .f32) :
    sout0_C_2 c i a2 h2 a3 h3 a4 h4 a5 h5 a6 h6 a7 h7 a8 h8 a9 h9 hc0 hc1 x0 x1 xs0 xs1 xs2 = step2 x0 x1 xs2 := by
  unfold sout0_C_2
  rw [View.read_writes_eq_canon _ _ _ (scover0_C_2 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz2]
  unfold step2
  simp only [View.readAt_eq_ld, h2.read_unread, h3.read_unread, h9.read_unread,
    View.ld_unit_zero (S := S1x8192x256) hz3, View.ld_unit_zero (S := S1x1x8192) hz3, View.ld_unit_zero (S := S8x64) hz2]

theorem out2_C (hc0 : ¬cond0_0 i) (hc1 : cond0_1 i) (x0 : Vec F S1x8192x256 .f32) (x1 : Vec F S1x1x8192 .i32) (xs0 : Vec F S64x256 .f32) (xs1 : Vec F S8x64 .f32) (xs2 : Vec F S8x64 .f32) :
    out0_C_2 c i a2 h2 a3 h3 a4 h4 a5 h5 a6 h6 a7 h7 a8 h8 a9 h9 hc0 hc1 x0 x1 xs0 xs1 xs2 = emit0 (step0 x0 x1 xs0) := by
  unfold out0_C_2
  rw [View.read_writes_eq_canon _ _ _ (cover0_C_2 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz3, View.readCov_unit_zero (S := S64x256) _ hz2]
  unfold emit0 step0
  simp only [View.readAt_eq_ld, h2.read_unread, h3.read_unread, h7.read_unread,
    View.ld_unit_zero (S := S1x8192x256) hz3, View.ld_unit_zero (S := S1x1x8192) hz3, View.ld_unit_zero (S := S64x256) hz2]

theorem out3_C (hc0 : ¬cond0_0 i) (hc1 : cond0_1 i) (x0 : Vec F S1x8192x256 .f32) (x1 : Vec F S1x1x8192 .i32) (xs0 : Vec F S64x256 .f32) (xs1 : Vec F S8x64 .f32) (xs2 : Vec F S8x64 .f32) :
    out0_C_3 c i a2 h2 a3 h3 a4 h4 a5 h5 a6 h6 a7 h7 a8 h8 a9 h9 hc0 hc1 x0 x1 xs0 xs1 xs2 = emit1 (step1 x0 x1 xs1) := by
  unfold out0_C_3
  rw [View.read_writes_eq_canon _ _ _ (cover0_C_3 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz3, View.readCov_unit_zero (S := S8x64) _ hz2]
  unfold emit1 step1
  simp only [View.readAt_eq_ld, h2.read_unread, h3.read_unread, h8.read_unread,
    View.ld_unit_zero (S := S1x8192x256) hz3, View.ld_unit_zero (S := S1x1x8192) hz3, View.ld_unit_zero (S := S8x64) hz2]

theorem out4_C (hc0 : ¬cond0_0 i) (hc1 : cond0_1 i) (x0 : Vec F S1x8192x256 .f32) (x1 : Vec F S1x1x8192 .i32) (xs0 : Vec F S64x256 .f32) (xs1 : Vec F S8x64 .f32) (xs2 : Vec F S8x64 .f32) :
    out0_C_4 c i a2 h2 a3 h3 a4 h4 a5 h5 a6 h6 a7 h7 a8 h8 a9 h9 hc0 hc1 x0 x1 xs0 xs1 xs2 = emit2 (step2 x0 x1 xs2) := by
  unfold out0_C_4
  rw [View.read_writes_eq_canon _ _ _ (cover0_C_4 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz3, View.readCov_unit_zero (S := S8x64) _ hz2]
  unfold emit2 step2
  simp only [View.readAt_eq_ld, h2.read_unread, h3.read_unread, h9.read_unread,
    View.ld_unit_zero (S := S1x8192x256) hz3, View.ld_unit_zero (S := S1x1x8192) hz3, View.ld_unit_zero (S := S8x64) hz2]

end Cert.KernelIdeal.KV

end
-- ==== Proof.KPayload.lean ====
/-
  The kernel's per-point operations read at an index, over the extended reals, for a block of real numbers.

  The class indicator of row `s` for class `k` is 1 when the row's class, read as a signed integer, is `k`, else 0
  (the kernel compares the class word with the row of the class-number column 0 … 63). With the block's entries real,
  the low-order limb `x − x` vanishes, so the indicator matrix times the block is the sum of the class's rows, the
  indicator times the column of squared norms beside a column of ones gives the class's squared-norm sum and count.
-/
import proofs.«409659_j28166395527342_3_alg».proof.Proof.KSteps
import proofs.«409659_j28166395527342_3_alg».proof.Proof.LibERealRows
import Idealize.ShloMosaic.Lib.Pipeline.Value
import Idealize.ShloMosaic.Lib.ValueLayout
import Idealize.ShloMosaic.PureOps.Ideal.Laws
import Mathlib.Data.EReal.Operations

noncomputable section

open Idealize.ShloMosaic Idealize.ShloMosaic.TcCoe Idealize.SL.Sem
open Idealize.ShloMosaic.ValueIdx

namespace Cert.KernelIdeal.KV

open Cert.KernelIdeal Cert.KernelIdeal.Gen

/-! ## Words: the class comparison -/

/-- A small number's word is a given word exactly when that word, read signed, is the number. -/
private theorem word_eq_iff (k : Nat) (hk : k < 64) (w : BitVec 32) : BitVec.ofNat 32 k = w ↔ w.toInt = (k : ℤ) := by
  constructor
  · rintro rfl
    rw [BitVec.toInt_eq_toNat_cond, BitVec.toNat_ofNat]
    have : k % 2 ^ 32 = k := Nat.mod_eq_of_lt (by omega)
    rw [this]; split <;> omega
  · intro h
    rw [BitVec.toInt_eq_toNat_cond] at h
    apply BitVec.eq_of_toNat_eq
    rw [BitVec.toNat_ofNat]
    have := w.isLt
    split at h <;> omega

/-- The comparison bit of two words, widened and converted, is 1 when they are equal and 0 otherwise. -/
private theorem bit_toReal (a b : BitVec 32) :
    (FloatOps.sitofp (F := Ideal) .f32 ((IntOp.cmpi .eq a b).setWidth 32) : EReal) = if a = b then 1 else 0 := by
  by_cases h : a = b
  · have e : IntOp.cmpi .eq a b = 1#1 := by simp [IntOp.cmpi, h]
    rw [if_pos h, e]
    show (((BitVec.setWidth 32 1#1).toInt : ℝ) : EReal) = 1
    have : (BitVec.setWidth 32 1#1).toInt = 1 := by decide
    rw [this]; simp
  · have e : IntOp.cmpi .eq a b = 0#1 := by
      show BitVec.ofBool (a == b) = 0#1
      rw [beq_eq_false_iff_ne.mpr h]; rfl
    rw [if_neg h, e]
    show (((BitVec.setWidth 32 0#1).toInt : ℝ) : EReal) = 0
    have : (BitVec.setWidth 32 0#1).toInt = 0 := by decide
    rw [this]; simp

/-- The row of classes, repeated down the 64 class numbers, reads the class word of its column. -/
private theorem classRow_apply (x1 : Vec Ideal S1x1x8192 .i32) (k : Fin 64) (s : Fin 8192) :
    broadcastTo S64x8192 (shapeCast S1x8192 x1 shapeCasts_S1x1x8192_S1x8192) broadcasts_S1x8192_S64x8192 (ix2 k s)
      = x1 (ix3 0 0 s) :=
  (broadcastTo_1b_ab_apply _ _ k s).trans (shapeCast_1ab_ab_apply _ _ 0 s)

/-- The column of class numbers, repeated along the 8192 rows, reads its row's number. -/
private theorem classNum_apply (k : Fin 64) (s : Fin 8192) :
    broadcastTo S64x8192 (iota .tc S64x1 32 [0] iota_S64x1_d0_w32) broadcasts_S64x1_S64x8192 (ix2 k s)
      = BitVec.ofNat 32 k.val := by
  refine (broadcastTo_apply _ _ (ix2 k s) (ix2 k (0 : Fin 1)) (fun a => ?_)).trans ?_
  · match a with
    | ⟨0, _⟩ => rfl
    | ⟨1, _⟩ => rfl
  · exact iota_single_apply _ _ _ _ _ _

/-- The class indicator: entry (k, s) is 1 when row s has class k, else 0. -/
private theorem onehot_apply (x1 : Vec Ideal S1x1x8192 .i32) (k : Fin 64) (s : Fin 8192) :
    (k0_pay11 (F := Ideal) x1 : S64x8192.Idx → EReal) (ix2 k s)
      = if ((x1 : S1x1x8192.Idx → BitVec 32) (ix3 0 0 s)).toInt = (k.val : ℤ) then 1 else 0 := by
  unfold k0_pay11
  show FloatOps.sitofp (F := Ideal) .f32 ((IntOp.cmpi .eq
      (broadcastTo S64x8192 (iota .tc S64x1 32 [0] iota_S64x1_d0_w32) broadcasts_S64x1_S64x8192 (ix2 k s))
      (broadcastTo S64x8192 (shapeCast S1x8192 x1 shapeCasts_S1x1x8192_S1x8192) broadcasts_S1x8192_S64x8192 (ix2 k s))).setWidth 32) = _
  rw [classNum_apply, classRow_apply, bit_toReal]
  exact if_congr (word_eq_iff k.val k.isLt _) rfl rfl

/-! ## The two matrix products into a zero accumulator, read at an index -/

/-- The products' dimension numbers place the result's row on the left operand's rows … -/
private theorem lhsT_0 (j : S64x256.Idx) (k : dot_S64x8192_S8192x256_S64x256_1_0_0_1_n_n.contr.Idx) :
    (dot_S64x8192_S8192x256_S64x256_1_0_0_1_n_n.lhsIdx j k 0 : ℕ) = j 0 := by
  simp [DotDims.lhsIdx, dot_S64x8192_S8192x256_S64x256_1_0_0_1_n_n]; rfl
/-- … the contracted coordinate on its columns … -/
private theorem lhsT_1 (j : S64x256.Idx) (k : dot_S64x8192_S8192x256_S64x256_1_0_0_1_n_n.contr.Idx) :
    (dot_S64x8192_S8192x256_S64x256_1_0_0_1_n_n.lhsIdx j k 1 : ℕ) = k ⟨0, by decide⟩ := by
  simp [DotDims.lhsIdx, dot_S64x8192_S8192x256_S64x256_1_0_0_1_n_n]; rfl
/-- … the contracted coordinate on the right operand's rows … -/
private theorem rhsT_0 (j : S64x256.Idx) (k : dot_S64x8192_S8192x256_S64x256_1_0_0_1_n_n.contr.Idx) :
    (dot_S64x8192_S8192x256_S64x256_1_0_0_1_n_n.rhsIdx j k 0 : ℕ) = k ⟨0, by decide⟩ := by
  simp [DotDims.rhsIdx, dot_S64x8192_S8192x256_S64x256_1_0_0_1_n_n]; rfl
/-- … and the result's column on its columns. -/
private theorem rhsT_1 (j : S64x256.Idx) (k : dot_S64x8192_S8192x256_S64x256_1_0_0_1_n_n.contr.Idx) :
    (dot_S64x8192_S8192x256_S64x256_1_0_0_1_n_n.rhsIdx j k 1 : ℕ) = j 1 := by
  simp [DotDims.rhsIdx, dot_S64x8192_S8192x256_S64x256_1_0_0_1_n_n]; rfl

/-- The 64 × 8192 by 8192 × 256 product into zero is the plain sum over the 8192 rows. -/
private theorem matmulT_apply (A : FVec Ideal S64x8192 .bf16) (B : FVec Ideal S8192x256 .bf16) (k : Fin 64) (d : Fin 256) :
    (matmul dot_S64x8192_S8192x256_S64x256_1_0_0_1_n_n none A B (constant (F := Ideal) S64x256 .f32 0x00000000#32)
        : S64x256.Idx → EReal) (ix2 k d)
      = ∑ s : Fin 8192, A (ix2 k s) * B (ix2 s d) := by
  show FloatOps.matmul dot_S64x8192_S8192x256_S64x256_1_0_0_1_n_n none A B (constant S64x256 .f32 0x00000000#32) (ix2 k d) = _
  rw [Ideal.matmul_constant_zero_apply,
    ← Equiv.sum_comp (contrEquiv1 dot_S64x8192_S8192x256_S64x256_1_0_0_1_n_n 8192 rfl rfl).symm]
  refine Finset.sum_congr rfl fun c _ => ?_
  have hc := contrEquiv1_symm_val dot_S64x8192_S8192x256_S64x256_1_0_0_1_n_n 8192 rfl rfl c
  have hl : dot_S64x8192_S8192x256_S64x256_1_0_0_1_n_n.lhsIdx (ix2 k d) ((contrEquiv1 _ 8192 rfl rfl).symm c) = ix2 k c := by
    funext ax; apply Fin.ext
    match ax with
    | ⟨0, _⟩ => exact lhsT_0 _ _
    | ⟨1, _⟩ => exact (lhsT_1 _ _).trans hc
  have hr : dot_S64x8192_S8192x256_S64x256_1_0_0_1_n_n.rhsIdx (ix2 k d) ((contrEquiv1 _ 8192 rfl rfl).symm c) = ix2 c d := by
    funext ax; apply Fin.ext
    match ax with
    | ⟨0, _⟩ => exact (rhsT_0 _ _).trans hc
    | ⟨1, _⟩ => exact rhsT_1 _ _
  rw [hl, hr]

/-- The same four facts for the product with the two-column matrix. -/
private theorem lhsC_0 (j : S64x2.Idx) (k : dot_S64x8192_S8192x2_S64x2_1_0_0_1_n_n.contr.Idx) :
    (dot_S64x8192_S8192x2_S64x2_1_0_0_1_n_n.lhsIdx j k 0 : ℕ) = j 0 := by
  simp [DotDims.lhsIdx, dot_S64x8192_S8192x2_S64x2_1_0_0_1_n_n]; rfl
private theorem lhsC_1 (j : S64x2.Idx) (k : dot_S64x8192_S8192x2_S64x2_1_0_0_1_n_n.contr.Idx) :
    (dot_S64x8192_S8192x2_S64x2_1_0_0_1_n_n.lhsIdx j k 1 : ℕ) = k ⟨0, by decide⟩ := by
  simp [DotDims.lhsIdx, dot_S64x8192_S8192x2_S64x2_1_0_0_1_n_n]; rfl
private theorem rhsC_0 (j : S64x2.Idx) (k : dot_S64x8192_S8192x2_S64x2_1_0_0_1_n_n.contr.Idx) :
    (dot_S64x8192_S8192x2_S64x2_1_0_0_1_n_n.rhsIdx j k 0 : ℕ) = k ⟨0, by decide⟩ := by
  simp [DotDims.rhsIdx, dot_S64x8192_S8192x2_S64x2_1_0_0_1_n_n]; rfl
private theorem rhsC_1 (j : S64x2.Idx) (k : dot_S64x8192_S8192x2_S64x2_1_0_0_1_n_n.contr.Idx) :
    (dot_S64x8192_S8192x2_S64x2_1_0_0_1_n_n.rhsIdx j k 1 : ℕ) = j 1 := by
  simp [DotDims.rhsIdx, dot_S64x8192_S8192x2_S64x2_1_0_0_1_n_n]; rfl

/-- The 64 × 8192 by 8192 × 2 product into zero likewise. -/
private theorem matmulC_apply (A : FVec Ideal S64x8192 .bf16) (B : FVec Ideal S8192x2 .bf16) (k : Fin 64) (c : Fin 2) :
    (matmul dot_S64x8192_S8192x2_S64x2_1_0_0_1_n_n none A B (constant (F := Ideal) S64x2 .f32 0x00000000#32)
        : S64x2.Idx → EReal) (ix2 k c)
      = ∑ s : Fin 8192, A (ix2 k s) * B (ix2 s c) := by
  show FloatOps.matmul dot_S64x8192_S8192x2_S64x2_1_0_0_1_n_n none A B (constant S64x2 .f32 0x00000000#32) (ix2 k c) = _
  rw [Ideal.matmul_constant_zero_apply,
    ← Equiv.sum_comp (contrEquiv1 dot_S64x8192_S8192x2_S64x2_1_0_0_1_n_n 8192 rfl rfl).symm]
  refine Finset.sum_congr rfl fun t _ => ?_
  have hc := contrEquiv1_symm_val dot_S64x8192_S8192x2_S64x2_1_0_0_1_n_n 8192 rfl rfl t
  have hl : dot_S64x8192_S8192x2_S64x2_1_0_0_1_n_n.lhsIdx (ix2 k c) ((contrEquiv1 _ 8192 rfl rfl).symm t) = ix2 k t := by
    funext ax; apply Fin.ext
    match ax with
    | ⟨0, _⟩ => exact lhsC_0 _ _
    | ⟨1, _⟩ => exact (lhsC_1 _ _).trans hc
  have hr : dot_S64x8192_S8192x2_S64x2_1_0_0_1_n_n.rhsIdx (ix2 k c) ((contrEquiv1 _ 8192 rfl rfl).symm t) = ix2 t c := by
    funext ax; apply Fin.ext
    match ax with
    | ⟨0, _⟩ => exact (rhsC_0 _ _).trans hc
    | ⟨1, _⟩ => exact rhsC_1 _ _
  rw [hl, hr]

/-! ## The real-number bookkeeping -/

/-- A real number less itself is zero in the extended reals. -/
private theorem coe_sub_self (r : ℝ) : (r : EReal) - (r : EReal) = 0 := by
  rw [← EReal.coe_sub, sub_self, EReal.coe_zero]

/-- An indicator times a real is the real or zero. -/
private theorem ind_mul_coe (p : Prop) [Decidable p] (r : ℝ) :
    (if p then (1 : EReal) else 0) * (r : EReal) = ((if p then r else 0 : ℝ) : EReal) := by
  split
  · rw [one_mul]
  · rw [zero_mul, EReal.coe_zero]

/-- A product with an indicator matrix, high limb plus low limb, of a column of reals: the low limb vanishes and
    the high limb is the sum of the selected reals. -/
private theorem limbs_sum (P : Fin 8192 → Prop) [DecidablePred P] (f : Fin 8192 → ℝ) (A z zlo : Fin 8192 → EReal)
    (hA : ∀ s, A s = if P s then 1 else 0) (hz : ∀ s, z s = (f s : EReal)) (hzlo : ∀ s, zlo s = z s - z s) :
    (∑ s, A s * z s) + (∑ s, A s * zlo s) = ((∑ s, if P s then f s else 0 : ℝ) : EReal) := by
  have h2 : ∑ s, A s * zlo s = 0 :=
    Finset.sum_eq_zero fun s _ => by rw [hzlo s, hz s, coe_sub_self, mul_zero]
  rw [h2, add_zero, ← Cert.ERealRows.coe_sum]
  exact Finset.sum_congr rfl fun s _ => by rw [hA s, hz s, ind_mul_coe]

/-! ## The layout operations of the body, read at an index -/

/-- The block with its leading unit axis dropped. -/
private theorem block_apply (x0 : Vec Ideal S1x8192x256 .f32) (s : Fin 8192) (d : Fin 256) :
    (k0_pay10 (F := Ideal) x0 : S8192x256.Idx → EReal) (ix2 s d) = (x0 : S1x8192x256.Idx → EReal) (ix3 0 s d) := by
  unfold k0_pay10
  exact shapeCast_1ab_ab_apply _ _ s d

/-- The sum along a row of the 8192 × 256 matrix. -/
private theorem rowSum_apply (v : FVec Ideal S8192x256 .f32) (s : Fin 8192) :
    (multiReduction (F := Ideal) .add [1] S8192 v 0x00000000#32 reduces_S8192x256_S8192 (.inl rfl) rfl : S8192.Idx → EReal) (ix1 s)
      = ∑ d : Fin 256, v (ix2 s d) := by
  refine (Ideal.multiReduction_add_single v 0x00000000#32 reduces_S8192x256_S8192 (.inl rfl) rfl (ix1 s)).trans ?_
  refine Finset.sum_congr rfl fun d _ => congrArg v ?_
  funext a; apply Fin.ext
  match a with
  | ⟨0, _⟩ => rfl
  | ⟨1, _⟩ => rfl

/-- A vector of 8192 entries as a column. -/
private theorem column_apply (v : FVec Ideal S8192 .f32) (s : Fin 8192) (u : Fin 1) :
    (shapeCast S8192x1 v shapeCasts_S8192_S8192x1 : S8192x1.Idx → EReal) (ix2 s u) = v (ix1 s) :=
  shapeCast_apply v _ _ _ (by
    have hu : u.val = 0 := by omega
    rw [Shape.rowMajor_val_one, Shape.rowMajor_val_two]
    show s.val = s.val * 1 + u.val
    omega)

/-- Two columns side by side: the first column of the result is the first piece … -/
private theorem beside_apply_0 (a b : FVec Ideal S8192x1 .f32) (s : Fin 8192) :
    (concatenate S8192x2 1 [⟨S8192x1, a⟩, ⟨S8192x1, b⟩] concatenates_S8192x1_S8192x1_S8192x2_d1 : S8192x2.Idx → EReal) (ix2 s (0 : Fin 2))
      = a (ix2 s (0 : Fin 1)) :=
  concatenate_pair_apply_left (1 : Fin 2) a b _ (ix2 s (0 : Fin 2)) rfl (ix2 s (0 : Fin 1)) (fun ax => by
    match ax with
    | ⟨0, _⟩ => rfl
    | ⟨1, _⟩ => rfl)

/-- … and the second column is the second piece. -/
private theorem beside_apply_1 (a b : FVec Ideal S8192x1 .f32) (s : Fin 8192) :
    (concatenate S8192x2 1 [⟨S8192x1, a⟩, ⟨S8192x1, b⟩] concatenates_S8192x1_S8192x1_S8192x2_d1 : S8192x2.Idx → EReal) (ix2 s (1 : Fin 2))
      = b (ix2 s (0 : Fin 1)) :=
  concatenate_pair_apply_right (1 : Fin 2) a b _ (ix2 s (1 : Fin 2)) rfl rfl (ix2 s (0 : Fin 1)) (fun ax hax => by
    match ax with
    | ⟨0, _⟩ => rfl
    | ⟨1, _⟩ => exact absurd rfl hax) rfl

/-! ## The body's values at an index -/

section Values

variable (x0 : Vec Ideal S1x8192x256 .f32) (x1 : Vec Ideal S1x1x8192 .i32) (xr : Fin 8192 → Fin 256 → ℝ)

/-- The two columns beside each other: each row's squared norm, and one. -/
private def cols (xr : Fin 8192 → Fin 256 → ℝ) (s : Fin 8192) (c : Fin 2) : ℝ :=
  if c.val = 0 then ∑ d, xr s d * xr s d else 1

/-- The two-column matrix the indicator is applied to: column 0 holds the rows' squared norms, column 1 ones. -/
private theorem twoCols_apply (hx : ∀ s d, (x0 : S1x8192x256.Idx → EReal) (ix3 0 s d) = ((xr s d : ℝ) : EReal))
    (s : Fin 8192) (c : Fin 2) :
    (concatenate S8192x2 1
        [⟨S8192x1, shapeCast S8192x1 (multiReduction (F := Ideal) .add [1] S8192 (mulf (k0_pay10 x0) (k0_pay10 x0)) 0x00000000#32
            reduces_S8192x256_S8192 (.inl rfl) rfl) shapeCasts_S8192_S8192x1⟩,
          ⟨S8192x1, broadcast S8192x1 (Scalar.ofBits (F := Ideal) .f32 0x3F800000#32)⟩]
        concatenates_S8192x1_S8192x1_S8192x2_d1 : S8192x2.Idx → EReal) (ix2 s c) = ((cols xr s c : ℝ) : EReal) := by
  match c with
  | ⟨0, _⟩ =>
    refine (beside_apply_0 _ _ s).trans ?_
    refine (column_apply _ s 0).trans ?_
    refine (rowSum_apply _ s).trans ?_
    show _ = ((∑ d, xr s d * xr s d : ℝ) : EReal)
    rw [← Cert.ERealRows.coe_sum]
    refine Finset.sum_congr rfl fun d _ => ?_
    rw [mulf_apply, block_apply, hx, EReal.coe_mul]
  | ⟨1, _⟩ =>
    refine (beside_apply_1 _ _ s).trans ?_
    show Ideal.ofBits .f32 0x3F800000#32 = ((1 : ℝ) : EReal)
    rw [Cert.ERealRows.ofBits_one, EReal.coe_one]

/-- The indicator applied to the two columns: entry (k, 0) is the squared-norm sum of class k, entry (k, 1) its count. -/
private theorem pay12_apply (hx : ∀ s d, (x0 : S1x8192x256.Idx → EReal) (ix3 0 s d) = ((xr s d : ℝ) : EReal))
    (k : Fin 64) (c : Fin 2) :
    (k0_pay12 (F := Ideal) x0 x1 : S64x2.Idx → EReal) (ix2 k c)
      = ((∑ s : Fin 8192, if ((x1 : S1x1x8192.Idx → BitVec 32) (ix3 0 0 s)).toInt = (k.val : ℤ) then cols xr s c else 0 : ℝ) : EReal) := by
  unfold k0_pay12
  rw [addf_apply, matmulC_apply, matmulC_apply]
  refine limbs_sum _ (fun s => cols xr s c) _ _ _ (fun s => onehot_apply x1 k s) (fun s => ?_) (fun s => ?_)
  · rw [truncf_apply]; exact twoCols_apply x0 xr hx s c
  · rw [truncf_apply, subf_apply, truncf_apply]

end Values

/-! ## Columns of the 64 × 2 product and rows added to an accumulator -/

/-- A column of the 64 × 2 matrix as a vector of 64 entries. -/
private theorem col_apply (P : FVec Ideal S64x2 .f32) (o : Nat) (h : S64x2.Slices ![0, o] S64x1) (k : Fin 64) (c : Fin 2)
    (hc : c.val = o) :
    (shapeCast S64 (extractStridedSlice S64x1 ![0, o] P h) shapeCasts_S64x1_S64 : S64.Idx → EReal) (ix1 k) = P (ix2 k c) := by
  refine (shapeCast_apply _ _ (ix1 k) (ix2 k (0 : Fin 1)) ?_).trans ?_
  · rw [Shape.rowMajor_val_one, Shape.rowMajor_val_two]
    show k.val * 1 + 0 = k.val
    omega
  · exact slice2_axis1_apply o P h k (0 : Fin 1) c (by show c.val = o + 0; omega)

/-- A vector of 64 entries laid as one row and repeated over eight rows, added to an 8 × 64 accumulator. -/
private theorem addRow_apply (v : FVec Ideal S64 .f32) (acc : Vec Ideal S8x64 .f32) (r : Fin 8) (k : Fin 64) :
    (shapeCast S8x64 (addf acc (broadcastTo S8x64 (shapeCast S1x64 (shapeCast S1x64 v shapeCasts_S64_S1x64) shapeCasts_S1x64_S1x64)
        broadcasts_S1x64_S8x64)) shapeCasts_S8x64_S8x64 : S8x64.Idx → EReal) (ix2 r k)
      = (acc : S8x64.Idx → EReal) (ix2 r k) + v (ix1 k) := by
  rw [shapeCast_self, addf_apply, shapeCast_self]
  exact congrArg ((acc : S8x64.Idx → EReal) (ix2 r k) + ·)
    ((broadcastTo_1b_ab_apply _ _ r k).trans (shapeCast_a_1a_apply _ _ 0 k))

/-! ## The per-point operations -/

variable (x0 : Vec Ideal S1x8192x256 .f32) (x1 : Vec Ideal S1x1x8192 .i32) (xr : Fin 8192 → Fin 256 → ℝ)

theorem zero0_apply (j : S64x256.Idx) : (zero0 (F := Ideal) : S64x256.Idx → EReal) j = 0 := by
  unfold zero0 k0_pay7
  rw [shapeCast_self]
  exact Ideal.ofBits_zero_f32

theorem zero1_apply (j : S8x64.Idx) : (zero1 (F := Ideal) : S8x64.Idx → EReal) j = 0 := by
  unfold zero1 k0_pay8
  rw [shapeCast_self]
  exact Ideal.ofBits_zero_f32

theorem zero2_apply (j : S8x64.Idx) : (zero2 (F := Ideal) : S8x64.Idx → EReal) j = 0 := by
  unfold zero2 k0_pay9
  rw [shapeCast_self]
  exact Ideal.ofBits_zero_f32

/-- The totals: entry (k, d) grows by the sum over the block's rows of class `k` of their coordinate `d`. -/
theorem step0_apply (hx : ∀ s d, (x0 : S1x8192x256.Idx → EReal) (ix3 0 s d) = ((xr s d : ℝ) : EReal))
    (s0 : Vec Ideal S64x256 .f32) (k : Fin 64) (d : Fin 256) :
    (step0 x0 x1 s0 : S64x256.Idx → EReal) (ix2 k d)
      = (s0 : S64x256.Idx → EReal) (ix2 k d)
        + ((∑ s : Fin 8192, if ((x1 : S1x1x8192.Idx → BitVec 32) (ix3 0 0 s)).toInt = (k.val : ℤ) then xr s d else 0 : ℝ) : EReal) := by
  unfold step0 k0_pay1 k0_pay15
  rw [shapeCast_self, addf_apply, addf_apply, matmulT_apply, matmulT_apply]
  refine congrArg ((s0 : S64x256.Idx → EReal) (ix2 k d) + ·) ?_
  refine limbs_sum _ (fun s => xr s d) _ _ _ (fun s => onehot_apply x1 k s) (fun s => ?_) (fun s => ?_)
  · rw [truncf_apply, block_apply, hx]
  · rw [truncf_apply, subf_apply, truncf_apply]

/-- The counts: every row `r` of the accumulator's entry for class `k` grows by the number of the block's rows of class `k`. -/
theorem step1_apply (hx : ∀ s d, (x0 : S1x8192x256.Idx → EReal) (ix3 0 s d) = ((xr s d : ℝ) : EReal))
    (s1 : Vec Ideal S8x64 .f32) (r : Fin 8) (k : Fin 64) :
    (step1 x0 x1 s1 : S8x64.Idx → EReal) (ix2 r k)
      = (s1 : S8x64.Idx → EReal) (ix2 r k)
        + ((∑ s : Fin 8192, if ((x1 : S1x1x8192.Idx → BitVec 32) (ix3 0 0 s)).toInt = (k.val : ℤ) then (1 : ℝ) else 0 : ℝ) : EReal) := by
  unfold step1 k0_pay2 k0_pay14
  rw [addRow_apply, col_apply _ 1 _ k (1 : Fin 2) rfl, pay12_apply x0 x1 xr hx]
  rfl

/-- The squared norms: every row `r` of the entry for class `k` grows by the sum of the squared norms of the block's rows of class `k`. -/
theorem step2_apply (hx : ∀ s d, (x0 : S1x8192x256.Idx → EReal) (ix3 0 s d) = ((xr s d : ℝ) : EReal))
    (s2 : Vec Ideal S8x64 .f32) (r : Fin 8) (k : Fin 64) :
    (step2 x0 x1 s2 : S8x64.Idx → EReal) (ix2 r k)
      = (s2 : S8x64.Idx → EReal) (ix2 r k)
        + ((∑ s : Fin 8192, if ((x1 : S1x1x8192.Idx → BitVec 32) (ix3 0 0 s)).toInt = (k.val : ℤ) then ∑ d, xr s d * xr s d else 0 : ℝ) : EReal) := by
  unfold step2 k0_pay3 k0_pay13
  rw [addRow_apply, col_apply _ 0 _ k (0 : Fin 2) rfl, pay12_apply x0 x1 xr hx]
  rfl

theorem emit0_apply (s0 : Vec Ideal S64x256 .f32) (k : Fin 64) (d : Fin 256) :
    (emit0 s0 : S1x64x256.Idx → EReal) (ix3 0 k d) = (s0 : S64x256.Idx → EReal) (ix2 k d) := by
  unfold emit0 k0_pay4
  exact shapeCast_ab_1ab_apply _ _ 0 k d

theorem emit1_apply (s1 : Vec Ideal S8x64 .f32) (r : Fin 8) (k : Fin 64) :
    (emit1 s1 : S1x8x64.Idx → EReal) (ix3 0 r k) = (s1 : S8x64.Idx → EReal) (ix2 r k) := by
  unfold emit1 k0_pay5
  exact shapeCast_ab_1ab_apply _ _ 0 r k

theorem emit2_apply (s2 : Vec Ideal S8x64 .f32) (r : Fin 8) (k : Fin 64) :
    (emit2 s2 : S1x8x64.Idx → EReal) (ix3 0 r k) = (s2 : S8x64.Idx → EReal) (ix2 r k) := by
  unfold emit2 k0_pay6
  exact shapeCast_ab_1ab_apply _ _ 0 r k

end Cert.KernelIdeal.KV

end
-- ==== Proof.KAccum.lean ====
/-
  What the kernel's accumulators hold after each grid point, over the extended reals, for real inputs.

  Grid point `t` (0 … 15) stages batch row `t` of the data and of the classes. After it the totals, counts and
  squared-norm accumulators hold the sums over the batch rows of `t`'s run of eight up to `t` — by induction on the
  point: a run's first point starts from zero, every other point adds its batch row to what the point before left —,
  and at a run's last point the outputs' blocks receive those sums.
-/
import proofs.«409659_j28166395527342_3_alg».proof.Proof.Gen.KernelIdeal.Frame
import proofs.«409659_j28166395527342_3_alg».proof.Proof.KPieces
import proofs.«409659_j28166395527342_3_alg».proof.Proof.KPayload
import proofs.«409659_j28166395527342_3_alg».proof.Proof.Stats

noncomputable section

open Idealize.ShloMosaic Idealize.ShloMosaic.TcCoe Idealize.SL.Sem
open Idealize.ShloMosaic.ValueIdx

namespace Cert.KernelIdeal.KV

open Cert.KernelIdeal Cert.KernelIdeal.Gen

variable (m : (ℓ : Loc nD τ sig) → Buf (Elt Ideal) ℓ)

/-- The rows' classes, read as signed integers. -/
def cls (c : Dev nD) : Fin 16 → Fin 8192 → ℤ :=
  fun b s => ((m ((c.tc : Thread nD τ).loc main_arg1) : S16x8192.Idx → BitVec 32) (ix2 b s)).toInt

theorem t_lt {t : Fin cfg0.N} : t.val < 16 := lt_of_lt_of_eq t.isLt N_0

/-- Window 0's block index at point `t` is `(t, 0, 0)`: decided over the sixteen points. -/
private theorem idx_facts0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Window 1's block index at point `t` is `(t, 0, 0)` too. -/
private theorem idx_facts1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Point `t`'s data block is batch row `t`. -/
theorem iblk0_apply (c : Dev nD) (t : Fin cfg0.N) (s : Fin 8192) (d : Fin 256) :
    (iblk m c 0 t : S1x8192x256.Idx → EReal) (ix3 0 s d)
      = (m ((c.tc : Thread nD τ).loc main_arg0) : S16x8192x256.Idx → EReal) (ix3 ⟨t.val, t_lt⟩ s d) := by
  unfold iblk
  rw [View.read_apply]
  show V m c main_arg0 _ = _
  rw [V_main_arg0]
  congr 1
  funext a
  apply Fin.ext
  match a with
  | ⟨0, _⟩ => show win0_0.index t 0 * 1 + 1 * 0 = t.val; rw [(idx_facts0 t).1]; omega
  | ⟨1, _⟩ => show win0_0.index t 1 * 8192 + 1 * s.val = s.val; rw [(idx_facts0 t).2.1]; omega
  | ⟨2, _⟩ => show win0_0.index t 2 * 256 + 1 * d.val = d.val; rw [(idx_facts0 t).2.2]; omega

/-- The class array the region finds: the classes [16, 8192] with a unit axis put in the middle, [16, 1, 8192]. -/
private theorem classes_eq (c : Dev nD) :
    (V m c main_v0 : S16x1x8192.Idx → BitVec 32)
      = broadcastInDim S16x1x8192 ![0, 2] bcast_S16x8192_S16x1x8192_0_2
          (m ((c.tc : Thread nD τ).loc main_arg1) : S16x8192.Idx → BitVec 32) := by
  show StableHlo.after hostOps0 (fun b => m (c, b)) (Proc.devRef .tc main_v0) = _
  after_results

/-- Point `t`'s class block is batch row `t` of the classes. -/
theorem iblk1_apply (c : Dev nD) (t : Fin cfg0.N) (s : Fin 8192) :
    (iblk m c 1 t : S1x1x8192.Idx → BitVec 32) (ix3 0 0 s)
      = (m ((c.tc : Thread nD τ).loc main_arg1) : S16x8192.Idx → BitVec 32) (ix2 ⟨t.val, t_lt⟩ s) := by
  unfold iblk
  rw [View.read_apply]
  show (V m c main_v0 : S16x1x8192.Idx → BitVec 32) _ = _
  rw [classes_eq]
  refine (broadcastInDim_apply _ _ _ _ (ix2 ⟨t.val, t_lt⟩ s) (fun a => ?_)).trans rfl
  match a with
  | ⟨0, _⟩ => show t.val = win0_1.index t 0 * 1 + 1 * 0; rw [(idx_facts1 t).1]; omega
  | ⟨1, _⟩ => show s.val = win0_1.index t 2 * 8192 + 1 * s.val; rw [(idx_facts1 t).2.2]; omega

/-- What the point before `t` left. -/
private abbrev prevOuts (c : Dev nD) (t : Fin cfg0.N) :=
  outsAt0 m c (t.val - 1) (Nat.lt_of_le_of_lt (Nat.sub_le _ _) t.isLt)

/-! ## The accumulators after a point, case by case -/

/-- At a run's first point the accumulators take the point's block from zero. -/
private theorem carried_A (c : Dev nD) (t : Fin cfg0.N) (h0 : t.val % 8 = 0) (h1 : ¬t.val % 8 = 7) :
    (outsAt0 m c t.val t.isLt).2.2.2
      = (step0 (iblk m c 0 t) (iblk m c 1 t) zero0, step1 (iblk m c 0 t) (iblk m c 1 t) zero1,
          step2 (iblk m c 0 t) (iblk m c 1 t) zero2) := by
  rw [outsAt0_A m c t h0 h1]; dsimp only
  rw [acc0_A, acc1_A, acc2_A]

/-- At a middle point they take the point's block over what the point before left. -/
private theorem carried_B (c : Dev nD) (t : Fin cfg0.N) (h0 : ¬t.val % 8 = 0) (h1 : ¬t.val % 8 = 7) :
    (outsAt0 m c t.val t.isLt).2.2.2
      = (step0 (iblk m c 0 t) (iblk m c 1 t) (prevOuts m c t).2.2.2.1, step1 (iblk m c 0 t) (iblk m c 1 t) (prevOuts m c t).2.2.2.2.1,
          step2 (iblk m c 0 t) (iblk m c 1 t) (prevOuts m c t).2.2.2.2.2) := by
  rw [outsAt0_B m c t h0 h1]; dsimp only
  rw [acc0_B, acc1_B, acc2_B]

/-- At a run's last point likewise, -/
private theorem carried_C (c : Dev nD) (t : Fin cfg0.N) (h0 : ¬t.val % 8 = 0) (h1 : t.val % 8 = 7) :
    (outsAt0 m c t.val t.isLt).2.2.2
      = (step0 (iblk m c 0 t) (iblk m c 1 t) (prevOuts m c t).2.2.2.1, step1 (iblk m c 0 t) (iblk m c 1 t) (prevOuts m c t).2.2.2.2.1,
          step2 (iblk m c 0 t) (iblk m c 1 t) (prevOuts m c t).2.2.2.2.2) := by
  rw [outsAt0_C m c t h0 h1]; dsimp only
  rw [acc0_C, acc1_C, acc2_C]

/-- and the outputs' blocks receive copies of the accumulators. -/
private theorem emitted_C (c : Dev nD) (t : Fin cfg0.N) (h0 : ¬t.val % 8 = 0) (h1 : t.val % 8 = 7) :
    ((outsAt0 m c t.val t.isLt).1, (outsAt0 m c t.val t.isLt).2.1, (outsAt0 m c t.val t.isLt).2.2.1)
      = (emit0 (outsAt0 m c t.val t.isLt).2.2.2.1, emit1 (outsAt0 m c t.val t.isLt).2.2.2.2.1,
          emit2 (outsAt0 m c t.val t.isLt).2.2.2.2.2) := by
  rw [carried_C m c t h0 h1]; dsimp only
  rw [outsAt0_C m c t h0 h1]; dsimp only
  rw [out2_C, out3_C, out4_C]

/-! ## One point's step, for a block of reals with integer classes -/

private theorem total_step (x0 : Vec Ideal S1x8192x256 .f32) (x1 : Vec Ideal S1x1x8192 .i32)
    (xr : Fin 8192 → Fin 256 → ℝ) (κ : Fin 8192 → ℤ)
    (hx : ∀ s d, (x0 : S1x8192x256.Idx → EReal) (ix3 0 s d) = ((xr s d : ℝ) : EReal))
    (hκ : ∀ s, ((x1 : S1x1x8192.Idx → BitVec 32) (ix3 0 0 s)).toInt = κ s)
    (s0 : Vec Ideal S64x256 .f32) (k : Fin 64) (d : Fin 256) (a : ℝ)
    (hs : (s0 : S64x256.Idx → EReal) (ix2 k d) = ((a : ℝ) : EReal)) :
    (step0 x0 x1 s0 : S64x256.Idx → EReal) (ix2 k d)
      = ((a + ∑ s : Fin 8192, if κ s = (k.val : ℤ) then xr s d else 0 : ℝ) : EReal) := by
  rw [step0_apply x0 x1 xr hx s0 k d, hs, ← EReal.coe_add]
  simp only [hκ]

private theorem count_step (x0 : Vec Ideal S1x8192x256 .f32) (x1 : Vec Ideal S1x1x8192 .i32)
    (xr : Fin 8192 → Fin 256 → ℝ) (κ : Fin 8192 → ℤ)
    (hx : ∀ s d, (x0 : S1x8192x256.Idx → EReal) (ix3 0 s d) = ((xr s d : ℝ) : EReal))
    (hκ : ∀ s, ((x1 : S1x1x8192.Idx → BitVec 32) (ix3 0 0 s)).toInt = κ s)
    (s1 : Vec Ideal S8x64 .f32) (r : Fin 8) (k : Fin 64) (a : ℝ)
    (hs : (s1 : S8x64.Idx → EReal) (ix2 r k) = ((a : ℝ) : EReal)) :
    (step1 x0 x1 s1 : S8x64.Idx → EReal) (ix2 r k)
      = ((a + ∑ s : Fin 8192, if κ s = (k.val : ℤ) then (1 : ℝ) else 0 : ℝ) : EReal) := by
  rw [step1_apply x0 x1 xr hx s1 r k, hs, ← EReal.coe_add]
  simp only [hκ]

private theorem sq_step (x0 : Vec Ideal S1x8192x256 .f32) (x1 : Vec Ideal S1x1x8192 .i32)
    (xr : Fin 8192 → Fin 256 → ℝ) (κ : Fin 8192 → ℤ)
    (hx : ∀ s d, (x0 : S1x8192x256.Idx → EReal) (ix3 0 s d) = ((xr s d : ℝ) : EReal))
    (hκ : ∀ s, ((x1 : S1x1x8192.Idx → BitVec 32) (ix3 0 0 s)).toInt = κ s)
    (s2 : Vec Ideal S8x64 .f32) (r : Fin 8) (k : Fin 64) (a : ℝ)
    (hs : (s2 : S8x64.Idx → EReal) (ix2 r k) = ((a : ℝ) : EReal)) :
    (step2 x0 x1 s2 : S8x64.Idx → EReal) (ix2 r k)
      = ((a + ∑ s : Fin 8192, if κ s = (k.val : ℤ) then ∑ d, xr s d * xr s d else 0 : ℝ) : EReal) := by
  rw [step2_apply x0 x1 xr hx s2 r k, hs, ← EReal.coe_add]
  simp only [hκ]

variable (zr : Dev nD → Fin 16 → Fin 8192 → Fin 256 → ℝ)
  (hz : ∀ c b s d, (m ((c.tc : Thread nD τ).loc main_arg0) : S16x8192x256.Idx → EReal) (ix3 b s d) = ((zr c b s d : ℝ) : EReal))

include hz in
/-- Point `t`'s data block holds the reals of batch row `t`. -/
private theorem block_real (c : Dev nD) (t : Fin cfg0.N) (s : Fin 8192) (d : Fin 256) :
    (iblk m c 0 t : S1x8192x256.Idx → EReal) (ix3 0 s d) = ((zr c ⟨t.val, t_lt⟩ s d : ℝ) : EReal) :=
  (iblk0_apply m c t s d).trans (hz c _ s d)

/-- Point `t`'s class words, read as integers, are the classes of batch row `t`. -/
private theorem block_cls (c : Dev nD) (t : Fin cfg0.N) (s : Fin 8192) :
    ((iblk m c 1 t : S1x1x8192.Idx → BitVec 32) (ix3 0 0 s)).toInt = cls m c ⟨t.val, t_lt⟩ s :=
  congrArg BitVec.toInt (iblk1_apply m c t s)

include hz in
/-- One point of the induction: the accumulators after `t`, given what the point before left when `t` is not a
    run's first point. -/
private theorem scratch_step (c : Dev nD) (t : Fin cfg0.N)
    (prev : ¬t.val % 8 = 0 →
      (∀ k d, ((prevOuts m c t).2.2.2.1 : S64x256.Idx → EReal) (ix2 k d) = ((Stats.accTotal (zr c) (cls m c) (t.val - 1) k d : ℝ) : EReal))
      ∧ (∀ (r : Fin 8) k, ((prevOuts m c t).2.2.2.2.1 : S8x64.Idx → EReal) (ix2 r k) = ((Stats.accCount (cls m c) (t.val - 1) k : ℝ) : EReal))
      ∧ (∀ (r : Fin 8) k, ((prevOuts m c t).2.2.2.2.2 : S8x64.Idx → EReal) (ix2 r k) = ((Stats.accSq (zr c) (cls m c) (t.val - 1) k : ℝ) : EReal))) :
    (∀ k d, ((outsAt0 m c t.val t.isLt).2.2.2.1 : S64x256.Idx → EReal) (ix2 k d) = ((Stats.accTotal (zr c) (cls m c) t.val k d : ℝ) : EReal))
    ∧ (∀ (r : Fin 8) k, ((outsAt0 m c t.val t.isLt).2.2.2.2.1 : S8x64.Idx → EReal) (ix2 r k) = ((Stats.accCount (cls m c) t.val k : ℝ) : EReal))
    ∧ (∀ (r : Fin 8) k, ((outsAt0 m c t.val t.isLt).2.2.2.2.2 : S8x64.Idx → EReal) (ix2 r k) = ((Stats.accSq (zr c) (cls m c) t.val k : ℝ) : EReal)) := by
  by_cases h0 : t.val % 8 = 0
  · -- a run's first point: from zero, the sums are the batch row's own
    have h1 : ¬t.val % 8 = 7 := by omega
    rw [carried_A m c t h0 h1]; dsimp only
    refine ⟨fun k d => ?_, fun r k => ?_, fun r k => ?_⟩
    · refine (total_step (iblk m c 0 t) (iblk m c 1 t) (zr c ⟨t.val, t_lt⟩) (cls m c ⟨t.val, t_lt⟩)
        (block_real m zr hz c t) (block_cls m c t) zero0 k d 0 (zero0_apply _)).trans (congrArg _ ?_)
      rw [zero_add]
      exact (Stats.win_first (fun b => Stats.rowTotal (zr c) (cls m c) b k d) ⟨t.val, t_lt⟩ h0).symm
    · refine (count_step (iblk m c 0 t) (iblk m c 1 t) (zr c ⟨t.val, t_lt⟩) (cls m c ⟨t.val, t_lt⟩)
        (block_real m zr hz c t) (block_cls m c t) zero1 r k 0 (zero1_apply _)).trans (congrArg _ ?_)
      rw [zero_add]
      exact (Stats.win_first (fun b => Stats.rowCount (cls m c) b k) ⟨t.val, t_lt⟩ h0).symm
    · refine (sq_step (iblk m c 0 t) (iblk m c 1 t) (zr c ⟨t.val, t_lt⟩) (cls m c ⟨t.val, t_lt⟩)
        (block_real m zr hz c t) (block_cls m c t) zero2 r k 0 (zero2_apply _)).trans (congrArg _ ?_)
      rw [zero_add]
      exact (Stats.win_first (fun b => Stats.rowSq (zr c) (cls m c) b k) ⟨t.val, t_lt⟩ h0).symm
  · -- any other point: the batch row's sums over what the point before left
    obtain ⟨p0, p1, p2⟩ := prev h0
    have hC : (outsAt0 m c t.val t.isLt).2.2.2
        = (step0 (iblk m c 0 t) (iblk m c 1 t) (prevOuts m c t).2.2.2.1, step1 (iblk m c 0 t) (iblk m c 1 t) (prevOuts m c t).2.2.2.2.1,
            step2 (iblk m c 0 t) (iblk m c 1 t) (prevOuts m c t).2.2.2.2.2) := by
      by_cases h1 : t.val % 8 = 7
      · exact carried_C m c t h0 h1
      · exact carried_B m c t h0 h1
    rw [hC]; dsimp only
    refine ⟨fun k d => ?_, fun r k => ?_, fun r k => ?_⟩
    · refine (total_step (iblk m c 0 t) (iblk m c 1 t) (zr c ⟨t.val, t_lt⟩) (cls m c ⟨t.val, t_lt⟩)
        (block_real m zr hz c t) (block_cls m c t) (prevOuts m c t).2.2.2.1 k d _ (p0 k d)).trans (congrArg _ ?_)
      exact (Stats.win_next (fun b => Stats.rowTotal (zr c) (cls m c) b k d) ⟨t.val, t_lt⟩ h0).symm
    · refine (count_step (iblk m c 0 t) (iblk m c 1 t) (zr c ⟨t.val, t_lt⟩) (cls m c ⟨t.val, t_lt⟩)
        (block_real m zr hz c t) (block_cls m c t) (prevOuts m c t).2.2.2.2.1 r k _ (p1 r k)).trans (congrArg _ ?_)
      exact (Stats.win_next (fun b => Stats.rowCount (cls m c) b k) ⟨t.val, t_lt⟩ h0).symm
    · refine (sq_step (iblk m c 0 t) (iblk m c 1 t) (zr c ⟨t.val, t_lt⟩) (cls m c ⟨t.val, t_lt⟩)
        (block_real m zr hz c t) (block_cls m c t) (prevOuts m c t).2.2.2.2.2 r k _ (p2 r k)).trans (congrArg _ ?_)
      exact (Stats.win_next (fun b => Stats.rowSq (zr c) (cls m c) b k) ⟨t.val, t_lt⟩ h0).symm

include hz in
/-- The accumulators after point `n`. -/
theorem scratch_eq (c : Dev nD) (n : ℕ) (hn : n < cfg0.N) :
    (∀ k d, ((outsAt0 m c n hn).2.2.2.1 : S64x256.Idx → EReal) (ix2 k d) = ((Stats.accTotal (zr c) (cls m c) n k d : ℝ) : EReal))
    ∧ (∀ (r : Fin 8) k, ((outsAt0 m c n hn).2.2.2.2.1 : S8x64.Idx → EReal) (ix2 r k) = ((Stats.accCount (cls m c) n k : ℝ) : EReal))
    ∧ (∀ (r : Fin 8) k, ((outsAt0 m c n hn).2.2.2.2.2 : S8x64.Idx → EReal) (ix2 r k) = ((Stats.accSq (zr c) (cls m c) n k : ℝ) : EReal)) := by
  induction n with
  | zero => exact scratch_step m zr hz c ⟨0, hn⟩ (fun h => absurd rfl h)
  | succ n ih => exact scratch_step m zr hz c ⟨n + 1, hn⟩ (fun _ => ih (Nat.lt_of_succ_lt hn))

include hz in
/-- The outputs' blocks after a run's last point. -/
theorem emitted_eq (c : Dev nD) (t : Fin cfg0.N) (h7 : t.val % 8 = 7) :
    (∀ k d, ((outsAt0 m c t.val t.isLt).1 : S1x64x256.Idx → EReal) (ix3 0 k d) = ((Stats.accTotal (zr c) (cls m c) t.val k d : ℝ) : EReal))
    ∧ (∀ (r : Fin 8) k, ((outsAt0 m c t.val t.isLt).2.1 : S1x8x64.Idx → EReal) (ix3 0 r k) = ((Stats.accCount (cls m c) t.val k : ℝ) : EReal))
    ∧ (∀ (r : Fin 8) k, ((outsAt0 m c t.val t.isLt).2.2.1 : S1x8x64.Idx → EReal) (ix3 0 r k) = ((Stats.accSq (zr c) (cls m c) t.val k : ℝ) : EReal)) := by
  have h0 : ¬t.val % 8 = 0 := by omega
  obtain ⟨a0, a1, a2⟩ := scratch_eq m zr hz c t.val t.isLt
  have e := emitted_C m c t h0 h7
  have e0 : (outsAt0 m c t.val t.isLt).1 = emit0 (outsAt0 m c t.val t.isLt).2.2.2.1 := congrArg (fun p => p.1) e
  have e1 : (outsAt0 m c t.val t.isLt).2.1 = emit1 (outsAt0 m c t.val t.isLt).2.2.2.2.1 := congrArg (fun p => p.2.1) e
  have e2 : (outsAt0 m c t.val t.isLt).2.2.1 = emit2 (outsAt0 m c t.val t.isLt).2.2.2.2.2 := congrArg (fun p => p.2.2) e
  refine ⟨fun k d => ?_, fun r k => ?_, fun r k => ?_⟩
  · rw [e0]; exact (emit0_apply _ k d).trans (a0 k d)
  · rw [e1]; exact (emit1_apply _ r k).trans (a1 r k)
  · rw [e2]; exact (emit2_apply _ r k).trans (a2 r k)

end Cert.KernelIdeal.KV

end
-- ==== Proof.KArrays.lean ====
/-
  What the kernel's three output arrays hold after the region, for real inputs.

  Output block `p` (0 or 1) of each array is written back once, after the last point of run `p` (grid point
  `8p + 7`), with the accumulators' contents there: the two blocks cover each array, so entry `(p, ·, ·)` of an array
  is the run-`p` sum.
-/
import proofs.«409659_j28166395527342_3_alg».proof.Proof.Gen.KernelIdeal.Frame
import proofs.«409659_j28166395527342_3_alg».proof.Proof.KAccum
import proofs.«409659_j28166395527342_3_alg».proof.Proof.Stats
import Idealize.ShloMosaic.Lib.Pipeline.Value

noncomputable section

open Idealize.ShloMosaic Idealize.ShloMosaic.TcCoe Idealize.SL.Sem
open Idealize.ShloMosaic.ValueIdx

namespace Cert.KernelIdeal.KV

open Cert.KernelIdeal Cert.KernelIdeal.Gen
open Idealize.ShloMosaic.Pipeline (Dat)

variable (m : (ℓ : Loc nD τ sig) → Buf (Elt Ideal) ℓ)
variable (zr : Dev nD → Fin 16 → Fin 8192 → Fin 256 → ℝ)
  (hz : ∀ c b s d, (m ((c.tc : Thread nD τ).loc main_arg0) : S16x8192x256.Idx → EReal) (ix3 b s d) = ((zr c b s d : ℝ) : EReal))

/-- The totals array: entry (p, k, d) is run `p`'s total. -/
def totalArr (c : Dev nD) : Buf (Elt Ideal) ((c : Thread nD τ).loc main_v1_0) :=
  fun i : S2x64x256.Idx => ((Stats.accTotal (zr c) (cls m c) (8 * (i 0).val + 7) (i 1) (i 2) : ℝ) : EReal)
/-- The counts array: entry (p, r, k) is run `p`'s count, in every row `r`. -/
def countArr (c : Dev nD) : Buf (Elt Ideal) ((c : Thread nD τ).loc main_v1_1) :=
  fun i : S2x8x64.Idx => ((Stats.accCount (cls m c) (8 * (i 0).val + 7) (i 2) : ℝ) : EReal)
/-- The squared-norms array: entry (p, r, k) is run `p`'s squared-norm sum, in every row `r`. -/
def sqArr (c : Dev nD) : Buf (Elt Ideal) ((c : Thread nD τ).loc main_v1_2) :=
  fun i : S2x8x64.Idx => ((Stats.accSq (zr c) (cls m c) (8 * (i 0).val + 7) (i 2) : ℝ) : EReal)

/-- The totals window's block index at each grid point: the run on the first axis, zero on the others. -/
private theorem idx_total : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

include hz in
/-- What a run's last point writes back to the totals array is that run's block of `totalArr`: entry `(0, k, d)` of the
    block is entry `(t / 8, k, d)` of the array, and `8 (t / 8) + 7 = t` at a run's last point. -/
private theorem flushed_total (c : Dev nD) (t : Fin cfg0.N) (hf : (cfg0.win 2).flush t = true) :
    (dats m 0 c).flushed 2 t = ((cfg0.win 2).blk t).view.read (Elt Ideal) (totalArr m zr c) := by
  have h7 : t.val % 8 = 7 := (flush0_2 t).mp hf
  show (cfg0.win 2).cut (grid0.coords t) ((dats m 0 c).after 2 t) = _
  rw [after0_2]
  obtain ⟨e0, e1, e2⟩ := idx_total t
  obtain ⟨hT, -, -⟩ := emitted_eq m zr hz c t h7
  have key : ∀ j : S1x64x256.Idx, ((outsAt0 m c t.val t.isLt).1 : S1x64x256.Idx → EReal) j
      = totalArr m zr c (((cfg0.win 2).blk t).view.emb j) := by
    intro j
    have hj0 : (j 0).val < 1 := (j 0).isLt
    have hj1 : (j 1).val < 64 := (j 1).isLt
    have hj2 : (j 2).val < 256 := (j 2).isLt
    have hi0 : ((((cfg0.win 2).blk t).view.emb j) 0).val = t.val / 8 := by
      show win0_2.index t (0 : Fin 3) * 1 + 1 * (j 0).val = _
      omega
    have hi1 : (((cfg0.win 2).blk t).view.emb j) 1 = j 1 := Fin.ext (by
      show win0_2.index t (1 : Fin 3) * 64 + 1 * (j 1).val = _
      omega)
    have hi2 : (((cfg0.win 2).blk t).view.emb j) 2 = j 2 := Fin.ext (by
      show win0_2.index t (2 : Fin 3) * 256 + 1 * (j 2).val = _
      omega)
    have hz0 : (j 0 : Fin 1) = (0 : Fin 1) := Fin.ext (by show (j 0).val = 0; omega)
    have hj : j = ix3 (0 : Fin 1) (j 1) (j 2) :=
      (eq_ix3 j).trans (congrArg (fun z : Fin 1 => ix3 z (j 1) (j 2)) hz0)
    refine (congrArg _ hj).trans ((hT (j 1) (j 2)).trans ?_)
    show ((Stats.accTotal (zr c) (cls m c) t.val (j 1) (j 2) : ℝ) : EReal)
      = ((Stats.accTotal (zr c) (cls m c) (8 * ((((cfg0.win 2).blk t).view.emb j) 0).val + 7)
          ((((cfg0.win 2).blk t).view.emb j) 1) ((((cfg0.win 2).blk t).view.emb j) 2) : ℝ) : EReal)
    rw [hi0, hi1, hi2, show 8 * (t.val / 8) + 7 = t.val by omega]
  funext j
  exact key j

/-- An index of the totals array is in point `t`'s block iff each coordinate is in the block's range on its axis. -/
private theorem mem_blk_total (t : Fin cfg0.N) (i : S2x64x256.Idx) :
    i ∈ ((cfg0.win 2).blk t).view.set ↔ ∀ a : Fin 3, win0_2.index t a * S1x64x256.size a ≤ (i a).val ∧ (i a).val < win0_2.index t a * S1x64x256.size a + S1x64x256.size a := by
  show i ∈ ((View.whole main_v1_0).slice (win0_2.rect t)).set ↔ _
  rw [View.set_slice_whole, Rect.mem_set_unit]
  exact Iff.rfl

/-- Entry `(p, k, d)` of the totals array is in the block written back after point `8p + 7`. -/
private theorem cover_total (i : S2x64x256.Idx) :
    ∃ t : Fin cfg0.N, (cfg0.win 2).flush t = true ∧ i ∈ ((cfg0.win 2).blk t).view.set := by
  have hi0 : (i 0).val < 2 := (i 0).isLt
  have hi1 : (i 1).val < 64 := (i 1).isLt
  have hi2 : (i 2).val < 256 := (i 2).isLt
  have hN : cfg0.N = 16 := N_0
  have ht : 8 * (i 0).val + 7 < cfg0.N := by rw [hN]; omega
  refine ⟨⟨8 * (i 0).val + 7, ht⟩, (flush0_2 _).mpr (by show (8 * (i 0).val + 7) % 8 = 7; omega), ?_⟩
  rw [mem_blk_total]
  obtain ⟨e0, e1, e2⟩ := idx_total ⟨8 * (i 0).val + 7, ht⟩
  have e0' : win0_2.index ⟨8 * (i 0).val + 7, ht⟩ (0 : Fin 3) = (i 0).val := by
    rw [e0]; show (8 * (i 0).val + 7) / 8 = (i 0).val; omega
  intro a
  match a with
  | ⟨0, _⟩ =>
    show win0_2.index ⟨8 * (i 0).val + 7, ht⟩ (0 : Fin 3) * 1 ≤ (i 0).val ∧ (i 0).val < win0_2.index ⟨8 * (i 0).val + 7, ht⟩ (0 : Fin 3) * 1 + 1
    omega
  | ⟨1, _⟩ =>
    show win0_2.index ⟨8 * (i 0).val + 7, ht⟩ (1 : Fin 3) * 64 ≤ (i 1).val ∧ (i 1).val < win0_2.index ⟨8 * (i 0).val + 7, ht⟩ (1 : Fin 3) * 64 + 64
    omega
  | ⟨2, _⟩ =>
    show win0_2.index ⟨8 * (i 0).val + 7, ht⟩ (2 : Fin 3) * 256 ≤ (i 2).val ∧ (i 2).val < win0_2.index ⟨8 * (i 0).val + 7, ht⟩ (2 : Fin 3) * 256 + 256
    omega

include hz in
theorem arr_total (c : Dev nD) : (dats m 0 c).arrAt 2 cfg0.N = totalArr m zr c := by
  exact (dats m 0 c).arrAt_eq_of_cover 2 (totalArr m zr c) (fun t hf => flushed_total m zr hz c t hf) cover_total

/-- The counts window's block index at each grid point: the run on the first axis, zero on the others. -/
private theorem idx_count : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

include hz in
/-- What a run's last point writes back to the counts array is that run's block of `countArr`: entry `(0, r, k)` of the
    block is entry `(t / 8, r, k)` of the array, and `8 (t / 8) + 7 = t` at a run's last point. -/
private theorem flushed_count (c : Dev nD) (t : Fin cfg0.N) (hf : (cfg0.win 3).flush t = true) :
    (dats m 0 c).flushed 3 t = ((cfg0.win 3).blk t).view.read (Elt Ideal) (countArr m c) := by
  have h7 : t.val % 8 = 7 := (flush0_3 t).mp hf
  show (cfg0.win 3).cut (grid0.coords t) ((dats m 0 c).after 3 t) = _
  rw [after0_3]
  obtain ⟨e0, e1, e2⟩ := idx_count t
  obtain ⟨-, hT, -⟩ := emitted_eq m zr hz c t h7
  have key : ∀ j : S1x8x64.Idx, ((outsAt0 m c t.val t.isLt).2.1 : S1x8x64.Idx → EReal) j
      = countArr m c (((cfg0.win 3).blk t).view.emb j) := by
    intro j
    have hj0 : (j 0).val < 1 := (j 0).isLt
    have hj1 : (j 1).val < 8 := (j 1).isLt
    have hj2 : (j 2).val < 64 := (j 2).isLt
    have hi0 : ((((cfg0.win 3).blk t).view.emb j) 0).val = t.val / 8 := by
      show win0_3.index t (0 : Fin 3) * 1 + 1 * (j 0).val = _
      omega
    have hi2 : (((cfg0.win 3).blk t).view.emb j) 2 = j 2 := Fin.ext (by
      show win0_3.index t (2 : Fin 3) * 64 + 1 * (j 2).val = _
      omega)
    have hz0 : (j 0 : Fin 1) = (0 : Fin 1) := Fin.ext (by show (j 0).val = 0; omega)
    have hj : j = ix3 (0 : Fin 1) (j 1) (j 2) :=
      (eq_ix3 j).trans (congrArg (fun z : Fin 1 => ix3 z (j 1) (j 2)) hz0)
    refine (congrArg _ hj).trans ((hT (j 1) (j 2)).trans ?_)
    show ((Stats.accCount (cls m c) t.val (j 2) : ℝ) : EReal)
      = ((Stats.accCount (cls m c) (8 * ((((cfg0.win 3).blk t).view.emb j) 0).val + 7) ((((cfg0.win 3).blk t).view.emb j) 2) : ℝ) : EReal)
    rw [hi0, hi2, show 8 * (t.val / 8) + 7 = t.val by omega]
  funext j
  exact key j

/-- An index of the counts array is in point `t`'s block iff each coordinate is in the block's range on its axis. -/
private theorem mem_blk_count (t : Fin cfg0.N) (i : S2x8x64.Idx) :
    i ∈ ((cfg0.win 3).blk t).view.set ↔ ∀ a : Fin 3, win0_3.index t a * S1x8x64.size a ≤ (i a).val ∧ (i a).val < win0_3.index t a * S1x8x64.size a + S1x8x64.size a := by
  show i ∈ ((View.whole main_v1_1).slice (win0_3.rect t)).set ↔ _
  rw [View.set_slice_whole, Rect.mem_set_unit]
  exact Iff.rfl

/-- Entry `(p, r, k)` of the counts array is in the block written back after point `8p + 7`. -/
private theorem cover_count (i : S2x8x64.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 64 := (i 2).isLt
  have hN : cfg0.N = 16 := N_0
  have ht : 8 * (i 0).val + 7 < cfg0.N := by rw [hN]; omega
  refine ⟨⟨8 * (i 0).val + 7, ht⟩, (flush0_3 _).mpr (by show (8 * (i 0).val + 7) % 8 = 7; omega), ?_⟩
  rw [mem_blk_count]
  obtain ⟨e0, e1, e2⟩ := idx_count ⟨8 * (i 0).val + 7, ht⟩
  have e0' : win0_3.index ⟨8 * (i 0).val + 7, ht⟩ (0 : Fin 3) = (i 0).val := by
    rw [e0]; show (8 * (i 0).val + 7) / 8 = (i 0).val; omega
  intro a
  match a with
  | ⟨0, _⟩ =>
    show win0_3.index ⟨8 * (i 0).val + 7, ht⟩ (0 : Fin 3) * 1 ≤ (i 0).val ∧ (i 0).val < win0_3.index ⟨8 * (i 0).val + 7, ht⟩ (0 : Fin 3) * 1 + 1
    omega
  | ⟨1, _⟩ =>
    show win0_3.index ⟨8 * (i 0).val + 7, ht⟩ (1 : Fin 3) * 8 ≤ (i 1).val ∧ (i 1).val < win0_3.index ⟨8 * (i 0).val + 7, ht⟩ (1 : Fin 3) * 8 + 8
    omega
  | ⟨2, _⟩ =>
    show win0_3.index ⟨8 * (i 0).val + 7, ht⟩ (2 : Fin 3) * 64 ≤ (i 2).val ∧ (i 2).val < win0_3.index ⟨8 * (i 0).val + 7, ht⟩ (2 : Fin 3) * 64 + 64
    omega

include hz in
theorem arr_count (c : Dev nD) : (dats m 0 c).arrAt 3 cfg0.N = countArr m c := by
  exact (dats m 0 c).arrAt_eq_of_cover 3 (countArr m c) (fun t hf => flushed_count m zr hz c t hf) cover_count

/-- The squared-norms window's block index at each grid point: the run on the first axis, zero on the others. -/
private theorem idx_sq : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

include hz in
/-- What a run's last point writes back to the squared-norms array is that run's block of `sqArr`: entry `(0, r, k)` of the
    block is entry `(t / 8, r, k)` of the array, and `8 (t / 8) + 7 = t` at a run's last point. -/
private theorem flushed_sq (c : Dev nD) (t : Fin cfg0.N) (hf : (cfg0.win 4).flush t = true) :
    (dats m 0 c).flushed 4 t = ((cfg0.win 4).blk t).view.read (Elt Ideal) (sqArr m zr c) := by
  have h7 : t.val % 8 = 7 := (flush0_4 t).mp hf
  show (cfg0.win 4).cut (grid0.coords t) ((dats m 0 c).after 4 t) = _
  rw [after0_4]
  obtain ⟨e0, e1, e2⟩ := idx_sq t
  obtain ⟨-, -, hT⟩ := emitted_eq m zr hz c t h7
  have key : ∀ j : S1x8x64.Idx, ((outsAt0 m c t.val t.isLt).2.2.1 : S1x8x64.Idx → EReal) j
      = sqArr m zr c (((cfg0.win 4).blk t).view.emb j) := by
    intro j
    have hj0 : (j 0).val < 1 := (j 0).isLt
    have hj1 : (j 1).val < 8 := (j 1).isLt
    have hj2 : (j 2).val < 64 := (j 2).isLt
    have hi0 : ((((cfg0.win 4).blk t).view.emb j) 0).val = t.val / 8 := by
      show win0_4.index t (0 : Fin 3) * 1 + 1 * (j 0).val = _
      omega
    have hi2 : (((cfg0.win 4).blk t).view.emb j) 2 = j 2 := Fin.ext (by
      show win0_4.index t (2 : Fin 3) * 64 + 1 * (j 2).val = _
      omega)
    have hz0 : (j 0 : Fin 1) = (0 : Fin 1) := Fin.ext (by show (j 0).val = 0; omega)
    have hj : j = ix3 (0 : Fin 1) (j 1) (j 2) :=
      (eq_ix3 j).trans (congrArg (fun z : Fin 1 => ix3 z (j 1) (j 2)) hz0)
    refine (congrArg _ hj).trans ((hT (j 1) (j 2)).trans ?_)
    show ((Stats.accSq (zr c) (cls m c) t.val (j 2) : ℝ) : EReal)
      = ((Stats.accSq (zr c) (cls m c) (8 * ((((cfg0.win 4).blk t).view.emb j) 0).val + 7) ((((cfg0.win 4).blk t).view.emb j) 2) : ℝ) : EReal)
    rw [hi0, hi2, show 8 * (t.val / 8) + 7 = t.val by omega]
  funext j
  exact key j

/-- An index of the squared-norms array is in point `t`'s block iff each coordinate is in the block's range on its axis. -/
private theorem mem_blk_sq (t : Fin cfg0.N) (i : S2x8x64.Idx) :
    i ∈ ((cfg0.win 4).blk t).view.set ↔ ∀ a : Fin 3, win0_4.index t a * S1x8x64.size a ≤ (i a).val ∧ (i a).val < win0_4.index t a * S1x8x64.size a + S1x8x64.size a := by
  show i ∈ ((View.whole main_v1_2).slice (win0_4.rect t)).set ↔ _
  rw [View.set_slice_whole, Rect.mem_set_unit]
  exact Iff.rfl

/-- Entry `(p, r, k)` of the squared-norms array is in the block written back after point `8p + 7`. -/
private theorem cover_sq (i : S2x8x64.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 64 := (i 2).isLt
  have hN : cfg0.N = 16 := N_0
  have ht : 8 * (i 0).val + 7 < cfg0.N := by rw [hN]; omega
  refine ⟨⟨8 * (i 0).val + 7, ht⟩, (flush0_4 _).mpr (by show (8 * (i 0).val + 7) % 8 = 7; omega), ?_⟩
  rw [mem_blk_sq]
  obtain ⟨e0, e1, e2⟩ := idx_sq ⟨8 * (i 0).val + 7, ht⟩
  have e0' : win0_4.index ⟨8 * (i 0).val + 7, ht⟩ (0 : Fin 3) = (i 0).val := by
    rw [e0]; show (8 * (i 0).val + 7) / 8 = (i 0).val; omega
  intro a
  match a with
  | ⟨0, _⟩ =>
    show win0_4.index ⟨8 * (i 0).val + 7, ht⟩ (0 : Fin 3) * 1 ≤ (i 0).val ∧ (i 0).val < win0_4.index ⟨8 * (i 0).val + 7, ht⟩ (0 : Fin 3) * 1 + 1
    omega
  | ⟨1, _⟩ =>
    show win0_4.index ⟨8 * (i 0).val + 7, ht⟩ (1 : Fin 3) * 8 ≤ (i 1).val ∧ (i 1).val < win0_4.index ⟨8 * (i 0).val + 7, ht⟩ (1 : Fin 3) * 8 + 8
    omega
  | ⟨2, _⟩ =>
    show win0_4.index ⟨8 * (i 0).val + 7, ht⟩ (2 : Fin 3) * 64 ≤ (i 2).val ∧ (i 2).val < win0_4.index ⟨8 * (i 0).val + 7, ht⟩ (2 : Fin 3) * 64 + 64
    omega

include hz in
theorem arr_sq (c : Dev nD) : (dats m 0 c).arrAt 4 cfg0.N = sqArr m zr c := by
  exact (dats m 0 c).arrAt_eq_of_cover 4 (sqArr m zr c) (fun t hf => flushed_sq m zr hz c t hf) cover_sq

end Cert.KernelIdeal.KV

end
-- ==== Proof.KRun.lean ====
/-
  The idealized kernel's run, read: for real inputs its two results are the class centroids and the one-pass
  within-class variances.

  After the region the host adds the two runs' blocks of each array (all sixteen batch rows), keeps row 0 of the
  counts and of the squared-norm sums, clamps the counts below by one, divides the totals by them (the centroids), and
  takes the mean squared norm less the centroid's squared norm, clamped at zero (the variance in one pass).
-/
import proofs.«409659_j28166395527342_3_alg».proof.Proof.Gen.KernelIdeal.Frame
import proofs.«409659_j28166395527342_3_alg».proof.Proof.KArrays
import proofs.«409659_j28166395527342_3_alg».proof.Proof.Stats
import proofs.«409659_j28166395527342_3_alg».proof.Proof.LibERealRows
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.ValueIdx

namespace Cert.KernelIdeal.KV

open Cert.KernelIdeal Cert.KernelIdeal.Gen
open Idealize.ShloMosaic.Pipeline (Dat)

variable (m : (ℓ : Loc nD τ sig) → Buf (Elt Ideal) ℓ) (ρ : Dev nD → PrngReg)
variable (zr : Dev nD → Fin 16 → Fin 8192 → Fin 256 → ℝ)
  (hz : ∀ c b s d, (m ((c.tc : Thread nD τ).loc main_arg0) : S16x8192x256.Idx → EReal) (ix3 b s d) = ((zr c b s d : ℝ) : EReal))

/-! ## The host's lines after the region, as functions of the three arrays -/

/-- Row 0 of the sum of an array's two blocks, as a vector of 64. -/
private def rowTail (a : (⟨S2x8x64, .f32⟩ : BufTy).Contents (Elt Ideal)) : (⟨S64, .f32⟩ : BufTy).Contents (Elt Ideal) :=
  shapeCast S64 (extractStridedSlice S1x64 ![0, 0]
    (Host.reduceAdd (F := Ideal) a (constant (F := Ideal) S_ .f32 0x00000000#32) reducesTo_S2x8x64_S8x64_d0 h_S_)
    slices_S8x64_S1x64_0_0) shapeCasts_S1x64_S64

/-- The counts clamped below by one. -/
private def safeTail (a1 : (⟨S2x8x64, .f32⟩ : BufTy).Contents (Elt Ideal)) : (⟨S64, .f32⟩ : BufTy).Contents (Elt Ideal) :=
  maximumf (F := Ideal) (rowTail a1) (broadcastInDim S64 ![] bcast_S_S64 (constant (F := Ideal) S_ .f32 0x3F800000#32))

/-- The centroids: the summed totals over the clamped counts. -/
private def centroidTail (a0 : (⟨S2x64x256, .f32⟩ : BufTy).Contents (Elt Ideal)) (a1 : (⟨S2x8x64, .f32⟩ : BufTy).Contents (Elt Ideal)) :
    (⟨S64x256, .f32⟩ : BufTy).Contents (Elt Ideal) :=
  Host.divf (F := Ideal)
    (Host.reduceAdd (F := Ideal) a0 (constant (F := Ideal) S_ .f32 0x00000000#32) reducesTo_S2x64x256_S64x256_d0 h_S_)
    (broadcastInDim S64x256 ![0, 1] bcast_S64x1_S64x256_0_1 (broadcastInDim S64x1 ![0] bcast_S64_S64x1_0 (safeTail a1)))

/-- The variances: the mean squared norm less the centroid's squared norm, clamped below by zero. -/
private def varTail (a0 : (⟨S2x64x256, .f32⟩ : BufTy).Contents (Elt Ideal)) (a1 a2 : (⟨S2x8x64, .f32⟩ : BufTy).Contents (Elt Ideal)) :
    (⟨S64, .f32⟩ : BufTy).Contents (Elt Ideal) :=
  maximumf (F := Ideal)
    (subf (F := Ideal) (Host.divf (F := Ideal) (rowTail a2) (safeTail a1))
      (Host.reduceAdd (F := Ideal) (mulf (F := Ideal) (centroidTail a0 a1) (centroidTail a0 a1))
        (constant (F := Ideal) S_ .f32 0x00000000#32) reducesTo_S64x256_S64_d1 h_S_))
    (broadcastInDim S64 ![] bcast_S_S64 (constant (F := Ideal) S_ .f32 0x00000000#32))

/-! ## Each line read at an index -/

/-- The sum over the two blocks of a [2, 64, 256] array, from zero. -/
private theorem sum2_total (a : (⟨S2x64x256, .f32⟩ : BufTy).Contents (Elt Ideal)) (k : Fin 64) (d : Fin 256) :
    (Host.reduceAdd (F := Ideal) a (constant (F := Ideal) S_ .f32 0x00000000#32) reducesTo_S2x64x256_S64x256_d0 h_S_ : S64x256.Idx → EReal) (ix2 k d)
      = (a : S2x64x256.Idx → EReal) (ix3 0 k d) + (a : S2x64x256.Idx → EReal) (ix3 1 k d) := by
  simp only [Host.reduceAdd, Ideal.hostReduceAdd_def]
  rw [Ideal.hostReduceAdd_single reducesTo_S2x64x256_S64x256_d0 (by decide)]
  rw [show (constant (F := Ideal) S_ .f32 0x00000000#32 : S_.Idx → EReal) (Shape.Idx.first h_S_) = 0 from Ideal.ofBits_zero_f32, zero_add]
  refine (Fin.sum_univ_two _).trans ?_
  refine congrArg₂ (· + ·) (congrArg a (funext fun x => ?_)) (congrArg a (funext fun x => ?_))
  · match x with | ⟨0, _⟩ => rfl | ⟨1, _⟩ => rfl | ⟨2, _⟩ => rfl
  · match x with | ⟨0, _⟩ => rfl | ⟨1, _⟩ => rfl | ⟨2, _⟩ => rfl

/-- The sum over the two blocks of a [2, 8, 64] array, from zero. -/
private theorem sum2_rows (a : (⟨S2x8x64, .f32⟩ : BufTy).Contents (Elt Ideal)) (r : Fin 8) (k : Fin 64) :
    (Host.reduceAdd (F := Ideal) a (constant (F := Ideal) S_ .f32 0x00000000#32) reducesTo_S2x8x64_S8x64_d0 h_S_ : S8x64.Idx → EReal) (ix2 r k)
      = (a : S2x8x64.Idx → EReal) (ix3 0 r k) + (a : S2x8x64.Idx → EReal) (ix3 1 r k) := by
  simp only [Host.reduceAdd, Ideal.hostReduceAdd_def]
  rw [Ideal.hostReduceAdd_single reducesTo_S2x8x64_S8x64_d0 (by decide)]
  rw [show (constant (F := Ideal) S_ .f32 0x00000000#32 : S_.Idx → EReal) (Shape.Idx.first h_S_) = 0 from Ideal.ofBits_zero_f32, zero_add]
  refine (Fin.sum_univ_two _).trans ?_
  refine congrArg₂ (· + ·) (congrArg a (funext fun x => ?_)) (congrArg a (funext fun x => ?_))
  · match x with | ⟨0, _⟩ => rfl | ⟨1, _⟩ => rfl | ⟨2, _⟩ => rfl
  · match x with | ⟨0, _⟩ => rfl | ⟨1, _⟩ => rfl | ⟨2, _⟩ => rfl

/-- The sum along a row of a [64, 256] array, from zero. -/
private theorem sum_row (y : (⟨S64x256, .f32⟩ : BufTy).Contents (Elt Ideal)) (k : Fin 64) :
    (Host.reduceAdd (F := Ideal) y (constant (F := Ideal) S_ .f32 0x00000000#32) reducesTo_S64x256_S64_d1 h_S_ : S64.Idx → EReal) (ix1 k)
      = ∑ d : Fin 256, (y : S64x256.Idx → EReal) (ix2 k d) := by
  simp only [Host.reduceAdd, Ideal.hostReduceAdd_def]
  rw [Ideal.hostReduceAdd_single reducesTo_S64x256_S64_d1 (by decide)]
  rw [show (constant (F := Ideal) S_ .f32 0x00000000#32 : S_.Idx → EReal) (Shape.Idx.first h_S_) = 0 from Ideal.ofBits_zero_f32, zero_add]
  refine Finset.sum_congr rfl fun d _ => congrArg y (funext fun x => ?_)
  match x with | ⟨0, _⟩ => rfl | ⟨1, _⟩ => rfl

/-- Row 0 of an [8, 64] array, flattened to 64 entries, at entry `k`. -/
private theorem row0_apply (y : (⟨S8x64, .f32⟩ : BufTy).Contents (Elt Ideal)) (k : Fin 64) :
    (shapeCast S64 (extractStridedSlice S1x64 ![0, 0] y slices_S8x64_S1x64_0_0) shapeCasts_S1x64_S64 : S64.Idx → EReal) (ix1 k)
      = (y : S8x64.Idx → EReal) (ix2 0 k) := by
  refine (shapeCast_apply _ shapeCasts_S1x64_S64 (ix1 k) (ix2 0 k) ?_).trans ?_
  · rewrite [Shape.rowMajor_val_two, Shape.rowMajor_val_one]; show 0 * 64 + k.val = k.val; omega
  refine extractStridedSlice_apply ![0, 0] y slices_S8x64_S1x64_0_0 (ix2 0 k) (ix2 0 k) (fun x => ?_)
  match x with
  | ⟨0, _⟩ => rfl
  | ⟨1, _⟩ => show k.val = 0 + k.val; omega

/-- Row 0 of the summed blocks at class `k`. -/
private theorem rowTail_apply (a : (⟨S2x8x64, .f32⟩ : BufTy).Contents (Elt Ideal)) (k : Fin 64) :
    (rowTail a : S64.Idx → EReal) (ix1 k) = (a : S2x8x64.Idx → EReal) (ix3 0 0 k) + (a : S2x8x64.Idx → EReal) (ix3 1 0 k) :=
  (row0_apply _ k).trans (sum2_rows a 0 k)

/-- The clamped count of class `k`. -/
private theorem safeTail_apply (a1 : (⟨S2x8x64, .f32⟩ : BufTy).Contents (Elt Ideal)) (k : Fin 64) :
    (safeTail a1 : S64.Idx → EReal) (ix1 k)
      = max ((a1 : S2x8x64.Idx → EReal) (ix3 0 0 k) + (a1 : S2x8x64.Idx → EReal) (ix3 1 0 k)) 1 := by
  unfold safeTail
  show max ((rowTail a1 : S64.Idx → EReal) (ix1 k))
    ((broadcastInDim S64 ![] bcast_S_S64 (constant (F := Ideal) S_ .f32 0x3F800000#32) : S64.Idx → EReal) (ix1 k)) = _
  rw [rowTail_apply, broadcastInDim_apply _ bcast_S_S64 _ (ix1 k) ix0 (fun x => x.elim0)]
  exact congrArg (max _) Cert.ERealRows.ofBits_one

/-- The centroid of class `k` at coordinate `d`. -/
private theorem centroidTail_apply (a0 : (⟨S2x64x256, .f32⟩ : BufTy).Contents (Elt Ideal)) (a1 : (⟨S2x8x64, .f32⟩ : BufTy).Contents (Elt Ideal))
    (k : Fin 64) (d : Fin 256) :
    (centroidTail a0 a1 : S64x256.Idx → EReal) (ix2 k d)
      = Ideal.div ((a0 : S2x64x256.Idx → EReal) (ix3 0 k d) + (a0 : S2x64x256.Idx → EReal) (ix3 1 k d))
          (max ((a1 : S2x8x64.Idx → EReal) (ix3 0 0 k) + (a1 : S2x8x64.Idx → EReal) (ix3 1 0 k)) 1) := by
  unfold centroidTail
  refine congrArg₂ Ideal.div (sum2_total a0 k d) ?_
  refine (broadcastInDim_apply _ bcast_S64x1_S64x256_0_1 _ (ix2 k d) (ix2 k 0) (fun x => ?_)).trans
    ((broadcastInDim_apply _ bcast_S64_S64x1_0 _ (ix2 k 0) (ix1 k) (fun x => ?_)).trans (safeTail_apply a1 k))
  · match x with
    | ⟨0, _⟩ => show k.val = if (64 : Nat) = 1 then 0 else k.val; rw [if_neg (by decide)]
    | ⟨1, _⟩ => show 0 = if (1 : Nat) = 1 then 0 else d.val; rw [if_pos rfl]
  · match x with
    | ⟨0, _⟩ => show k.val = if (64 : Nat) = 1 then 0 else k.val; rw [if_neg (by decide)]

/-- The variance of class `k`. -/
private theorem varTail_apply (a0 : (⟨S2x64x256, .f32⟩ : BufTy).Contents (Elt Ideal)) (a1 a2 : (⟨S2x8x64, .f32⟩ : BufTy).Contents (Elt Ideal))
    (k : Fin 64) :
    (varTail a0 a1 a2 : S64.Idx → EReal) (ix1 k)
      = max (Ideal.div ((a2 : S2x8x64.Idx → EReal) (ix3 0 0 k) + (a2 : S2x8x64.Idx → EReal) (ix3 1 0 k))
              (max ((a1 : S2x8x64.Idx → EReal) (ix3 0 0 k) + (a1 : S2x8x64.Idx → EReal) (ix3 1 0 k)) 1)
            - ∑ d : Fin 256, (centroidTail a0 a1 : S64x256.Idx → EReal) (ix2 k d) * (centroidTail a0 a1 : S64x256.Idx → EReal) (ix2 k d)) 0 := by
  unfold varTail
  show max (Ideal.div ((rowTail a2 : S64.Idx → EReal) (ix1 k)) ((safeTail a1 : S64.Idx → EReal) (ix1 k))
      - (Host.reduceAdd (F := Ideal) (mulf (F := Ideal) (centroidTail a0 a1) (centroidTail a0 a1))
          (constant (F := Ideal) S_ .f32 0x00000000#32) reducesTo_S64x256_S64_d1 h_S_ : S64.Idx → EReal) (ix1 k))
    ((broadcastInDim S64 ![] bcast_S_S64 (constant (F := Ideal) S_ .f32 0x00000000#32) : S64.Idx → EReal) (ix1 k)) = _
  rw [rowTail_apply, safeTail_apply, sum_row, broadcastInDim_apply _ bcast_S_S64 _ (ix1 k) ix0 (fun x => x.elim0)]
  exact congrArg (max _) Ideal.ofBits_zero_f32

/-! ## The same over the reals -/

/-- The coercion of the reals is monotone, so it carries a maximum to the maximum. -/
private theorem coe_max (a b : ℝ) : max (a : EReal) (b : EReal) = ((max a b : ℝ) : EReal) :=
  (EReal.coe_strictMono.monotone.map_max).symm

/-- A quotient of sums of reals by a clamped sum of reals is the real quotient: the divisor is at least one. -/
private theorem div_real (t0 t1 n0 n1 : ℝ) :
    Ideal.div ((t0 : EReal) + (t1 : EReal)) (max ((n0 : EReal) + (n1 : EReal)) 1) = (((t0 + t1) / max (n0 + n1) 1 : ℝ) : EReal) := by
  have hpos : max (n0 + n1) 1 ≠ 0 := ne_of_gt (lt_of_lt_of_le one_pos (le_max_right _ _))
  rw [← EReal.coe_add, ← EReal.coe_add, ← EReal.coe_one, coe_max, Ideal.div_coe hpos, ← EReal.coe_mul, mul_one_div]

/-- The clamped difference of a real quotient and a sum of real squares is real. -/
private theorem var_real (q0 q1 n0 n1 : ℝ) (μ : Fin 256 → ℝ) :
    max (Ideal.div ((q0 : EReal) + (q1 : EReal)) (max ((n0 : EReal) + (n1 : EReal)) 1) - ∑ d : Fin 256, ((μ d : ℝ) : EReal) * ((μ d : ℝ) : EReal)) 0
      = ((max ((q0 + q1) / max (n0 + n1) 1 - ∑ d : Fin 256, μ d * μ d) 0 : ℝ) : EReal) := by
  rw [div_real]
  simp only [← EReal.coe_mul]
  rw [Cert.ERealRows.coe_sum, ← EReal.coe_sub, ← EReal.coe_zero, coe_max]

/-! ## The results -/

/-- The centroids, as the first result's contents. -/
def centroidRes (c : Dev nD) : Buf (Elt Ideal) ((c : Thread nD τ).loc main_v13) :=
  fun i : S64x256.Idx => ((Stats.centroid (zr c) (cls m c) (i 0) (i 1) : ℝ) : EReal)
/-- The one-pass variances, as the second result's contents. -/
def varRes (c : Dev nD) : Buf (Elt Ideal) ((c : Thread nD τ).loc main_v19) :=
  fun i : S64.Idx => ((Stats.varOne (zr c) (cls m c) (i 0) : ℝ) : EReal)

/-! ## What the host's lines find in the three arrays -/

include hz in
/-- The totals array as the region leaves it. -/
private theorem exit_total (c : Dev nD) :
    Pipeline.withArrays (cfgs 0).spec c (V0 m c) (fun w => (dats m 0 c).arrAt w (cfgs 0).N) (Proc.devRef .tc main_v1_0)
      = totalArr m zr c :=
  (Pipeline.withArrays_arr spec0 launch0.win.arr_inj c _ _ 2).trans (arr_total m zr hz c)

include hz in
/-- The counts array as the region leaves it. -/
private theorem exit_count (c : Dev nD) :
    Pipeline.withArrays (cfgs 0).spec c (V0 m c) (fun w => (dats m 0 c).arrAt w (cfgs 0).N) (Proc.devRef .tc main_v1_1)
      = countArr m c :=
  (Pipeline.withArrays_arr spec0 launch0.win.arr_inj c _ _ 3).trans (arr_count m zr hz c)

include hz in
/-- The squared-norms array as the region leaves it. -/
private theorem exit_sq (c : Dev nD) :
    Pipeline.withArrays (cfgs 0).spec c (V0 m c) (fun w => (dats m 0 c).arrAt w (cfgs 0).N) (Proc.devRef .tc main_v1_2)
      = sqArr m zr c :=
  (Pipeline.withArrays_arr spec0 launch0.win.arr_inj c _ _ 4).trans (arr_sq m zr hz c)

/-- The centroid lines applied to the run sums are the centroids: the two runs' totals and counts add up to all
    sixteen batch rows', and the divisor, a count clamped below by one, is not zero. -/
private theorem centroidTail_runs (c : Dev nD) (k : Fin 64) (d : Fin 256) :
    (centroidTail (totalArr m zr c) (countArr m c) : S64x256.Idx → EReal) (ix2 k d)
      = ((Stats.centroid (zr c) (cls m c) k d : ℝ) : EReal) := by
  refine (centroidTail_apply _ _ k d).trans ?_
  show Ideal.div (((Stats.accTotal (zr c) (cls m c) 7 k d : ℝ) : EReal) + ((Stats.accTotal (zr c) (cls m c) 15 k d : ℝ) : EReal))
      (max (((Stats.accCount (cls m c) 7 k : ℝ) : EReal) + ((Stats.accCount (cls m c) 15 k : ℝ) : EReal)) 1) = _
  rw [div_real, Stats.centroid_eq, Stats.total_split, Stats.safe_eq, Stats.count_split]

include hz in
/-- The host's lines after the region, applied to the three arrays: the centroids. -/
theorem tail_centroid (c : Dev nD) :
    Pipeline.afterTail₀ cfgs (dats m) 0 (V0 m) [hostOps1] c main_v13 = centroidRes m zr c := by
  unfold Pipeline.afterTail₀
  show StableHlo.after hostOps1 _ (Proc.devRef .tc main_v13) = _
  after_results
  rw [exit_total m zr hz c, exit_count m zr hz c]
  show centroidTail (totalArr m zr c) (countArr m c) = _
  refine funext fun (i : S64x256.Idx) => ?_
  obtain ⟨k, d, rfl⟩ : ∃ k d, i = ix2 k d := ⟨i 0, i 1, eq_ix2 i⟩
  exact centroidTail_runs m zr c k d

include hz in
set_option maxHeartbeats 1000000 in
/-- The host's lines after the region, applied to the three arrays: the variances. -/
theorem tail_var (c : Dev nD) :
    Pipeline.afterTail₀ cfgs (dats m) 0 (V0 m) [hostOps1] c main_v19 = varRes m zr c := by
  unfold Pipeline.afterTail₀
  show StableHlo.after hostOps1 _ (Proc.devRef .tc main_v19) = _
  after_results_simp
  rw [exit_total m zr hz c, exit_count m zr hz c, exit_sq m zr hz c]
  show varTail (totalArr m zr c) (countArr m c) (sqArr m zr c) = _
  refine funext fun (i : S64.Idx) => ?_
  obtain ⟨k, rfl⟩ : ∃ k, i = ix1 k := ⟨i 0, eq_ix1 i⟩
  refine (varTail_apply _ _ _ k).trans ?_
  simp only [centroidTail_runs m zr c k]
  show max (Ideal.div (((Stats.accSq (zr c) (cls m c) 7 k : ℝ) : EReal) + ((Stats.accSq (zr c) (cls m c) 15 k : ℝ) : EReal))
      (max (((Stats.accCount (cls m c) 7 k : ℝ) : EReal) + ((Stats.accCount (cls m c) 15 k : ℝ) : EReal)) 1)
      - ∑ d : Fin 256, ((Stats.centroid (zr c) (cls m c) k d : ℝ) : EReal) * ((Stats.centroid (zr c) (cls m c) k d : ℝ) : EReal)) 0 = _
  rw [var_real]
  show _ = ((Stats.varOne (zr c) (cls m c) k : ℝ) : EReal)
  rw [Stats.varOne_eq, Stats.sqsum_split, Stats.safe_eq, Stats.count_split]

include hz in
/-- Every weakly fair execution of the idealized kernel ends with the centroids and the one-pass variances, the
    arguments unchanged. -/
theorem run : θ_run defs (onTc (τ := τ) (main (F := Ideal))) ⟨m, fun _ => 0, ρ⟩ (fun r => ∀ c : Dev nD,
      r.2.mem ((c.tc : Thread nD τ).loc main_v13) = centroidRes m zr c
      ∧ r.2.mem ((c.tc : Thread nD τ).loc main_v19) = varRes m zr c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v13 (Pipeline.mem_restRefs_of main_v13 (by decide) (by decide))).trans (tail_centroid m zr hz c),
     ((h c).2 main_v19 (Pipeline.mem_restRefs_of main_v19 (by decide) (by decide))).trans (tail_var m zr hz c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KV

end
-- ==== Proof.RScatter.lean ====
/-
  The reference's two accumulating scatters and its row gather, read at an index over the extended reals.

  The scatters add update `n` (a number, or row `n` of a 131072 × 256 array) into entry (row) `k` of the operand
  when start index `n`, read as a signed integer, is `k`; an index outside 0 … 63 lands nowhere. The gather reads row
  `n` of its result from the operand's row at start index `n`, read signed and clamped into 0 … 63.
-/
import proofs.«409659_j28166395527342_3_alg».proof.Proof.Gen.ReferenceIdeal.Read
import Idealize.ShloMosaic.Lib.ValueIdx
import Idealize.ShloMosaic.Lib.ValueIdxRank1
import Idealize.ShloMosaic.PureOps.Ideal.Laws

noncomputable section

open Idealize.ShloMosaic Idealize.ShloMosaic.TcCoe Idealize.SL.Sem
open Idealize.ShloMosaic.ValueIdx

namespace Cert.ReferenceIdeal.RV

open Cert.ReferenceIdeal Cert.ReferenceIdeal.Gen

/-- An update lands at operand index `i` exactly when, on every axis, its signed start plus its window coordinate is
    `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some_inj]
    constructor
    · intro hf a
      have hv := congrArg Fin.val (congrFun hf a)
      have ha := h a
      simp only at hv
      omega
    · intro hall
      funext a
      apply Fin.ext
      have ha := hall a
      simp only
      omega
  · rename_i h
    constructor
    · intro hf; cases hf
    · intro hall
      exfalso; apply h; intro a
      have ha := hall a
      have hlt := (i a).isLt
      omega

/-! ## The scatter into a vector of 64 -/

/-- The start of update `n` on the operand's one axis is start index `n`, read signed. -/
private theorem vec_start (n : Fin 131072) (idx : IVec S131072x1 32) (a : Fin 1) :
    scatter_S64_S131072x1_S131072_n_0_0_1.start (ix1 n) idx a = (idx (ix2 n 0)).toInt := by
  obtain rfl : a = 0 := Subsingleton.elim _ _
  unfold ScatterDims.start
  rw [dif_pos (show (0 : Fin 1) ∈ scatter_S64_S131072x1_S131072_n_0_0_1.scatterDimsToOperandDims from List.mem_singleton.mpr rfl)]
  congr 2
  funext b
  match b with
  | ⟨0, _⟩ => rfl
  | ⟨1, _⟩ => rfl

/-- The operand's one axis is an inserted one: no window coordinate. -/
private theorem vec_window (j : S131072.Idx) (a : Fin 1) :
    scatter_S64_S131072x1_S131072_n_0_0_1.window j a = 0 := by
  obtain rfl : a = 0 := Subsingleton.elim _ _
  unfold ScatterDims.window
  rw [dif_neg (by decide)]

/-- Update `n` lands at entry `k` exactly when start index `n`, read signed, is `k`. -/
private theorem vec_resultIdx (idx : IVec S131072x1 32) (n : Fin 131072) (k : Fin 64) :
    scatter_S64_S131072x1_S131072_n_0_0_1.resultIdx? (ix1 n) idx = some (ix1 k) ↔ (idx (ix2 n 0)).toInt = (k.val : ℤ) := by
  rw [resultIdx?_eq_some_iff]
  simp only [vec_start, vec_window]
  constructor
  · intro h
    have h0 := h 0
    change (idx (ix2 n 0)).toInt + ((0 : ℕ) : ℤ) = (k.val : ℤ) at h0
    omega
  · intro h a
    obtain rfl : a = 0 := Subsingleton.elim _ _
    change (idx (ix2 n 0)).toInt + ((0 : ℕ) : ℤ) = (k.val : ℤ)
    omega

/-- The scatter into a vector of 64: entry `k` gains the updates whose start index is `k`. -/
theorem scatter_vec_apply (x : FVec Ideal S64 .f32) (idx : IVec S131072x1 32) (upd : FVec Ideal S131072 .f32) (k : Fin 64) :
    (Host.scatterAdd scatter_S64_S131072x1_S131072_n_0_0_1 x idx upd : S64.Idx → EReal) (ix1 k)
      = (x : S64.Idx → EReal) (ix1 k)
        + ∑ n : Fin 131072, if (idx (ix2 n 0)).toInt = (k.val : ℤ) then (upd : S131072.Idx → EReal) (ix1 n) else 0 := by
  show (x : S64.Idx → EReal) (ix1 k)
      + ∑ j ∈ Finset.univ.filter (fun j => scatter_S64_S131072x1_S131072_n_0_0_1.resultIdx? j idx = some (ix1 k)),
          (upd : S131072.Idx → EReal) j = _
  refine congrArg (fun t => (x : S64.Idx → EReal) (ix1 k) + t) ?_
  rw [Finset.sum_filter, ← Equiv.sum_comp (idxEquiv1 (n := 131072)).symm]
  refine Finset.sum_congr rfl fun n _ => ?_
  show (if scatter_S64_S131072x1_S131072_n_0_0_1.resultIdx? (ix1 n) idx = some (ix1 k)
      then (upd : S131072.Idx → EReal) (ix1 n) else 0) = _
  simp only [vec_resultIdx]

/-! ## The scatter of rows into a 64 × 256 array -/

/-- The start of update `(n, c)`: start index `n`, read signed, on the row axis; `0` on the column axis. -/
private theorem rows_start0 (n : Fin 131072) (c : Fin 256) (idx : IVec S131072x1 32) :
    scatter_S64x256_S131072x1_S131072x256_1_0_0_1.start (ix2 n c) idx 0 = (idx (ix2 n 0)).toInt := by
  unfold ScatterDims.start
  rw [dif_pos (show (0 : Fin 2) ∈ scatter_S64x256_S131072x1_S131072x256_1_0_0_1.scatterDimsToOperandDims from List.mem_singleton.mpr rfl)]
  congr 2
  funext b
  match b with
  | ⟨0, _⟩ => rfl
  | ⟨1, _⟩ => rfl

private theorem rows_start1 (j : S131072x256.Idx) (idx : IVec S131072x1 32) :
    scatter_S64x256_S131072x1_S131072x256_1_0_0_1.start j idx 1 = 0 := by
  unfold ScatterDims.start
  rw [dif_neg (by decide)]

/-- The window coordinate of update `(n, c)`: none on the row axis, which is inserted; `c` on the column axis. -/
private theorem rows_window0 (j : S131072x256.Idx) :
    scatter_S64x256_S131072x1_S131072x256_1_0_0_1.window j 0 = 0 := by
  unfold ScatterDims.window
  rw [dif_neg (by decide)]

private theorem rows_window1 (n : Fin 131072) (c : Fin 256) :
    scatter_S64x256_S131072x1_S131072x256_1_0_0_1.window (ix2 n c) 1 = c.val := by
  unfold ScatterDims.window
  rw [dif_pos (by decide)]
  rfl

/-- Update `(n, c)` lands at entry `(k, d)` exactly when start index `n`, read signed, is `k` and `c` is `d`. -/
private theorem rows_resultIdx (idx : IVec S131072x1 32) (n : Fin 131072) (c : Fin 256) (k : Fin 64) (d : Fin 256) :
    scatter_S64x256_S131072x1_S131072x256_1_0_0_1.resultIdx? (ix2 n c) idx = some (ix2 k d)
      ↔ (idx (ix2 n 0)).toInt = (k.val : ℤ) ∧ c = d := by
  rw [resultIdx?_eq_some_iff, Fin.forall_fin_two, rows_start0, rows_start1, rows_window0, rows_window1]
  change (idx (ix2 n 0)).toInt + ((0 : ℕ) : ℤ) = (k.val : ℤ) ∧ (0 : ℤ) + (c.val : ℤ) = (d.val : ℤ) ↔ _
  rw [Fin.ext_iff]
  omega

/-- The scatter of rows into a 64 × 256 array: entry (k, d) gains coordinate `d` of the update rows whose start index is `k`. -/
theorem scatter_rows_apply (x : FVec Ideal S64x256 .f32) (idx : IVec S131072x1 32) (upd : FVec Ideal S131072x256 .f32)
    (k : Fin 64) (d : Fin 256) :
    (Host.scatterAdd scatter_S64x256_S131072x1_S131072x256_1_0_0_1 x idx upd : S64x256.Idx → EReal) (ix2 k d)
      = (x : S64x256.Idx → EReal) (ix2 k d)
        + ∑ n : Fin 131072, if (idx (ix2 n 0)).toInt = (k.val : ℤ) then (upd : S131072x256.Idx → EReal) (ix2 n d) else 0 := by
  show (x : S64x256.Idx → EReal) (ix2 k d)
      + ∑ j ∈ Finset.univ.filter (fun j => scatter_S64x256_S131072x1_S131072x256_1_0_0_1.resultIdx? j idx = some (ix2 k d)),
          (upd : S131072x256.Idx → EReal) j = _
  refine congrArg (fun t => (x : S64x256.Idx → EReal) (ix2 k d) + t) ?_
  rw [Finset.sum_filter, sum_idx2]
  refine Finset.sum_congr rfl fun n _ => ?_
  simp only [rows_resultIdx]
  by_cases hk : (idx (ix2 n 0)).toInt = (k.val : ℤ)
  · simp only [hk, true_and, if_true]
    rw [Finset.sum_ite_eq' Finset.univ d]
    simp
  · simp only [hk, false_and, if_false]
    exact Finset.sum_const_zero

/-! ## The gather of rows -/

/-- The gather of rows: row `n` of the result is the operand's row at start index `n`, read signed and clamped into 0 … 63. -/
theorem gather_rows_apply (x : FVec Ideal S64x256 .f32) (idx : IVec S131072x1 32) (n : Fin 131072) (d : Fin 256) :
    (Host.gather gather_S64x256_S131072x1_S131072x256_1_0_n_n_0_1_1256 x idx : S131072x256.Idx → EReal) (ix2 n d)
      = (x : S64x256.Idx → EReal) (ix2 ⟨min (idx (ix2 n 0)).toInt.toNat 63, by omega⟩ d) := by
  unfold Host.gather
  refine congrArg (x : S64x256.Idx → EReal) ?_
  funext a
  refine Fin.ext ?_
  show gather_S64x256_S131072x1_S131072x256_1_0_n_n_0_1_1256.start (ix2 n d) idx a
      + gather_S64x256_S131072x1_S131072x256_1_0_n_n_0_1_1256.batchCoord (ix2 n d) a
      + gather_S64x256_S131072x1_S131072x256_1_0_n_n_0_1_1256.offCoord (ix2 n d) a = _
  rw [GatherDims.batchCoord_eq_zero _ _ _ List.not_mem_nil, Nat.add_zero]
  revert a
  refine Fin.forall_fin_two.2 ⟨?_, ?_⟩
  · rw [GatherDims.offCoord_eq_zero _ _ _ (by decide), Nat.add_zero]
    unfold GatherDims.start
    rw [dif_pos (show (0 : Fin 2) ∈ gather_S64x256_S131072x1_S131072x256_1_0_n_n_0_1_1256.startIndexMap from List.mem_singleton.mpr rfl)]
    have hsi : gather_S64x256_S131072x1_S131072x256_1_0_n_n_0_1_1256.siIdx (ix2 n d)
        ⟨List.idxOf (0 : Fin 2) gather_S64x256_S131072x1_S131072x256_1_0_n_n_0_1_1256.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  · unfold GatherDims.start GatherDims.offCoord
    rw [dif_neg (by decide), dif_pos (by decide), Nat.zero_add]
    rfl

end Cert.ReferenceIdeal.RV

end
-- ==== Proof.RValue.lean ====
/-
  The idealized reference's run, read: for real inputs its two results are the class centroids and the two-pass
  within-class variances.

  The reference flattens the 16 × 8192 rows to 131072 (row `n` is batch row `n / 8192`, position `n % 8192`), scatters
  ones, the rows and — after subtracting from each row its class's centroid and summing squares — the squared distances
  into the 64 classes, and divides by the counts clamped below by one. A row whose class is `k` in 0 … 63 gathers
  centroid `k` (its class word is nonnegative, so the wrap-around select leaves it, and the clamp does nothing); a row of
  any other class contributes to no class, whatever it gathered.
-/
import proofs.«409659_j28166395527342_3_alg».proof.Proof.Gen.ReferenceIdeal.Read
import proofs.«409659_j28166395527342_3_alg».proof.Proof.RScatter
import proofs.«409659_j28166395527342_3_alg».proof.Proof.Stats
import proofs.«409659_j28166395527342_3_alg».proof.Proof.LibERealRows
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.ReferenceIdeal.RV

open Cert.ReferenceIdeal Cert.ReferenceIdeal.Gen

variable (x0 : (⟨S16x8192x256, .f32⟩ : BufTy).Contents (Elt Ideal)) (x1 : (⟨S16x8192, .i32⟩ : BufTy).Contents (Elt Ideal))

/-- The rows' classes, read as signed integers. -/
def cls : Fin 16 → Fin 8192 → ℤ := fun b s => ((x1 : S16x8192.Idx → BitVec 32) (ix2 b s)).toInt

variable (zr : Fin 16 → Fin 8192 → Fin 256 → ℝ)
  (hx : ∀ b s d, (x0 : S16x8192x256.Idx → EReal) (ix3 b s d) = ((zr b s d : ℝ) : EReal))

/-! ## The flattening -/

/-- Row `n` of the 131072 flattened rows is batch row `n / 8192`. -/
def rb (n : Fin 131072) : Fin 16 := ⟨n.val / 8192, by have := n.isLt; omega⟩
/-- Row `n` of the 131072 flattened rows is position `n % 8192` of its batch row. -/
def rs (n : Fin 131072) : Fin 8192 := ⟨n.val % 8192, Nat.mod_lt _ (by norm_num)⟩

/-- The flattened rows are the pairs (batch row, position). -/
def unflat : Fin 131072 ≃ Stats.Row where
  toFun n := (rb n, rs n)
  invFun p := ⟨p.1.val * 8192 + p.2.val, by have := p.1.isLt; have := p.2.isLt; omega⟩
  left_inv n := Fin.ext (by show n.val / 8192 * 8192 + n.val % 8192 = n.val; omega)
  right_inv p := by
    have h1 := p.1.isLt
    have h2 := p.2.isLt
    refine Prod.ext (Fin.ext ?_) (Fin.ext ?_)
    · show (p.1.val * 8192 + p.2.val) / 8192 = p.1.val; omega
    · show (p.1.val * 8192 + p.2.val) % 8192 = p.2.val; omega

/-- A sum over the flattened rows is the sum over the pairs. -/
theorem sum_flat {M : Type*} [AddCommMonoid M] (f : Stats.Row → M) :
    ∑ n : Fin 131072, f (rb n, rs n) = ∑ i : Stats.Row, f i :=
  Equiv.sum_comp unflat f

/-! ## The layout stages at an index -/

/-- The flattened rows: row `n`, coordinate `d`, is the input at (batch row, position, `d`). -/
theorem v0_at (n : Fin 131072) (d : Fin 256) :
    (Read.val_main_v0 x0 : S131072x256.Idx → EReal) (ix2 n d) = (x0 : S16x8192x256.Idx → EReal) (ix3 (rb n) (rs n) d) := by
  rw [Read.val_main_v0_apply]
  refine congrArg _ (funext fun a => Fin.ext ?_)
  have hn := n.isLt
  have hd := d.isLt
  match a with
  | ⟨0, _⟩ => show (n.val * 256 + d.val) / 2097152 = n.val / 8192; omega
  | ⟨1, _⟩ => show (n.val * 256 + d.val) / 256 % 8192 = n.val % 8192; omega
  | ⟨2, _⟩ => show (n.val * 256 + d.val) % 256 = d.val; omega

/-- The flattened classes: entry `n` is the class word at (batch row, position). -/
theorem v1_at (n : Fin 131072) :
    (Read.val_main_v1 (F := Ideal) x1 : S131072.Idx → BitVec 32) (ix1 n) = (x1 : S16x8192.Idx → BitVec 32) (ix2 (rb n) (rs n)) := by
  rw [Read.val_main_v1_apply]
  refine congrArg _ (funext fun a => Fin.ext ?_)
  match a with
  | ⟨0, _⟩ => rfl
  | ⟨1, _⟩ => rfl

/-- The start indices of the three scatters are the flattened classes as a column. -/
theorem v4_at (n : Fin 131072) :
    ((Read.val_main_v4 (F := Ideal) x1 : S131072x1.Idx → BitVec 32) (ix2 n 0)).toInt = cls x1 (rb n) (rs n) := by
  rw [Read.val_main_v4_apply]
  have e : Read.idx_main_v4 (ix2 n (0 : Fin 1)) = ix1 n := funext fun a => Fin.ext (by match a with | ⟨0, _⟩ => rfl)
  rw [e, v1_at]
  rfl

theorem v7_at (n : Fin 131072) :
    ((Read.val_main_v7 (F := Ideal) x1 : S131072x1.Idx → BitVec 32) (ix2 n 0)).toInt = cls x1 (rb n) (rs n) := v4_at x1 n

theorem v25_at (n : Fin 131072) :
    ((Read.val_main_v25 (F := Ideal) x1 : S131072x1.Idx → BitVec 32) (ix2 n 0)).toInt = cls x1 (rb n) (rs n) := v4_at x1 n

/-! ## The three scatters -/

/-- A scatter's gain at class `k` when the updates of the rows of class `k` are reals: the real sum over those rows. -/
theorem sum_class (k : Fin 64) (g : Fin 16 → Fin 8192 → ℝ) (u : Fin 131072 → EReal)
    (hu : ∀ n, cls x1 (rb n) (rs n) = (k.val : ℤ) → u n = ((g (rb n) (rs n) : ℝ) : EReal)) :
    (∑ n : Fin 131072, if cls x1 (rb n) (rs n) = (k.val : ℤ) then u n else 0)
      = ((∑ i : Stats.Row, if cls x1 i.1 i.2 = (k.val : ℤ) then g i.1 i.2 else 0 : ℝ) : EReal) := by
  rw [← Cert.ERealRows.coe_sum,
    ← sum_flat (fun i : Stats.Row => ((if cls x1 i.1 i.2 = (k.val : ℤ) then g i.1 i.2 else 0 : ℝ) : EReal))]
  refine Finset.sum_congr rfl fun n _ => ?_
  by_cases h : cls x1 (rb n) (rs n) = (k.val : ℤ)
  · rw [if_pos h, hu n h]
    show _ = ((if cls x1 (rb n) (rs n) = (k.val : ℤ) then g (rb n) (rs n) else 0 : ℝ) : EReal)
    rw [if_pos h]
  · rw [if_neg h]
    show _ = ((if cls x1 (rb n) (rs n) = (k.val : ℤ) then g (rb n) (rs n) else 0 : ℝ) : EReal)
    rw [if_neg h]
    rfl

/-- The counts: class `k` gains a one from each of its rows. -/
theorem counts_at (k : Fin 64) :
    (Read.val_main_v5 (F := Ideal) x1 : S64.Idx → EReal) (ix1 k) = ((Stats.count (cls x1) k : ℝ) : EReal) := by
  unfold Read.val_main_v5
  rw [scatter_vec_apply, Read.val_main_v3_apply, Read.val_main_cst_0_apply]
  simp only [Read.val_main_v2_apply, Read.val_main_cst_apply, v4_at, Ideal.ofBits_def, Ideal.ofBits_zero_f32,
    Cert.ERealRows.ofBits_one, zero_add]
  exact sum_class x1 k (fun _ _ => 1) (fun _ => 1) (fun _ _ => rfl)

/-- The clamped counts. -/
theorem safe_at (k : Fin 64) :
    (Read.val_main_v10 (F := Ideal) x1 : S64.Idx → EReal) (ix1 k) = ((Stats.safe (cls x1) k : ℝ) : EReal) := by
  rw [Read.val_main_v10_apply, counts_at, Read.val_main_v9_apply, Read.val_main_cst_2_apply, Ideal.maximumf_def,
    Ideal.ofBits_def, Cert.ERealRows.ofBits_one, Stats.safe_eq]
  exact (EReal.coe_strictMono.monotone.map_max (a := Stats.count (cls x1) k) (b := 1)).symm

include hx in
/-- The totals: entry (k, d) gains coordinate `d` of each row of class `k`. -/
theorem totals_at (k : Fin 64) (d : Fin 256) :
    (Read.val_main_v8 x0 x1 : S64x256.Idx → EReal) (ix2 k d) = ((Stats.total zr (cls x1) k d : ℝ) : EReal) := by
  unfold Read.val_main_v8
  rw [scatter_rows_apply, Read.val_main_v6_apply, Read.val_main_cst_1_apply]
  simp only [v7_at, v0_at, hx, Ideal.ofBits_def, Ideal.ofBits_zero_f32, zero_add]
  exact sum_class x1 k (fun b s => zr b s d) (fun n => ((zr (rb n) (rs n) d : ℝ) : EReal)) (fun _ _ => rfl)

include hx in
/-- The centroids at an index. -/
theorem centroid_at (k : Fin 64) (d : Fin 256) :
    (Read.val_main_v13 x0 x1 : S64x256.Idx → EReal) (ix2 k d) = ((Stats.centroid zr (cls x1) k d : ℝ) : EReal) := by
  have e12 : Read.idx_main_v11 (Read.idx_main_v12 (ix2 k d)) = ix1 k :=
    funext fun a => Fin.ext (by match a with | ⟨0, _⟩ => rfl)
  rw [Read.val_main_v13_apply, totals_at x0 x1 zr hx, Read.val_main_v12_apply, Read.val_main_v11_apply, e12, safe_at,
    Ideal.hostDivf_def, Ideal.div_coe (Stats.safe_pos (cls x1) k).ne', ← EReal.coe_mul, Stats.centroid_eq]
  congr 1
  ring

/-! ## The gathered centroid of a row whose class is in range -/

/-- A class word that reads as `k` in 0 … 63 is not negative, so the wrap-around select leaves it. -/
theorem wrap_nonneg (w : BitVec 32) (k : Fin 64) (h : w.toInt = (k.val : ℤ)) :
    Scalar.select (IntOp.cmpi .slt w 0#32) (IntOp.addi w 64#32) w = w := by
  have hs : w.slt 0#32 = false := by
    rw [Bool.eq_false_iff]
    intro hc
    rw [BitVec.slt_iff_toInt_lt, h] at hc
    have h0 : (0#32 : BitVec 32).toInt = 0 := by decide
    omega
  show Scalar.select (BitVec.ofBool (w.slt 0#32)) _ _ = w
  rw [hs]
  exact if_neg (by decide)

/-- The gather's start index of a row of class `k` reads as `k`. -/
theorem v19_at (n : Fin 131072) (k : Fin 64) (h : cls x1 (rb n) (rs n) = (k.val : ℤ)) :
    ((Read.val_main_v19 (F := Ideal) x1 : S131072x1.Idx → BitVec 32) (ix2 n 0)).toInt = (k.val : ℤ) := by
  have e : Read.idx_main_v19 (ix2 n (0 : Fin 1)) = ix1 n := funext fun a => Fin.ext (by match a with | ⟨0, _⟩ => rfl)
  rw [Read.val_main_v19_apply, e, Read.val_main_v18_apply, Read.val_main_v15_apply, Read.val_main_v17_apply,
    Read.val_main_v14_apply, Read.val_main_c_apply, Read.val_main_v16_apply, Read.val_main_c_3_apply, v1_at,
    wrap_nonneg _ k h]
  exact h

include hx in
/-- A row of class `k` gathers centroid `k`. -/
theorem gathered_at (n : Fin 131072) (d : Fin 256) (k : Fin 64) (h : cls x1 (rb n) (rs n) = (k.val : ℤ)) :
    (Read.val_main_v20 x0 x1 : S131072x256.Idx → EReal) (ix2 n d) = ((Stats.centroid zr (cls x1) k d : ℝ) : EReal) := by
  unfold Read.val_main_v20
  rw [gather_rows_apply]
  refine (congrArg (fun j : Fin 64 => (Read.val_main_v13 x0 x1 : S64x256.Idx → EReal) (ix2 j d)) (Fin.ext ?_)).trans
    (centroid_at x0 x1 zr hx k d)
  show min ((Read.val_main_v19 (F := Ideal) x1 : S131072x1.Idx → BitVec 32) (ix2 n 0)).toInt.toNat 63 = k.val
  rw [v19_at x1 n k h]
  have := k.isLt
  omega

include hx in
/-- The squared distance of a row of class `k` to centroid `k`. -/
theorem sq_at (n : Fin 131072) (k : Fin 64) (h : cls x1 (rb n) (rs n) = (k.val : ℤ)) :
    (Read.val_main_v23 x0 x1 : S131072.Idx → EReal) (ix1 n)
      = ((∑ d, (zr (rb n) (rs n) d - Stats.centroid zr (cls x1) k d) * (zr (rb n) (rs n) d - Stats.centroid zr (cls x1) k d) : ℝ) : EReal) := by
  rw [Read.val_main_v23_apply, Read.val_main_cst_4_apply, Ideal.ofBits_def, Ideal.ofBits_zero_f32, zero_add,
    ← Cert.ERealRows.coe_sum]
  refine Finset.sum_congr rfl fun d _ => ?_
  have e : Read.idx_main_v23 (ix1 n) d = ix2 n d :=
    funext fun a => Fin.ext (by match a with | ⟨0, _⟩ => rfl | ⟨1, _⟩ => rfl)
  rw [e, Read.val_main_v22_apply, Read.val_main_v21_apply, v0_at, hx, gathered_at x0 x1 zr hx n d k h, Ideal.mulf_def,
    Ideal.subf_def, ← EReal.coe_sub, ← EReal.coe_mul]

include hx in
/-- The squared distances, scattered: class `k` gains the squared distance to centroid `k` of each of its rows. -/
theorem sqdist_at (k : Fin 64) :
    (Read.val_main_v26 x0 x1 : S64.Idx → EReal) (ix1 k)
      = ((∑ i : Stats.Row, if cls x1 i.1 i.2 = (k.val : ℤ)
          then ∑ d, (zr i.1 i.2 d - Stats.centroid zr (cls x1) k d) * (zr i.1 i.2 d - Stats.centroid zr (cls x1) k d) else 0 : ℝ) : EReal) := by
  unfold Read.val_main_v26
  rw [scatter_vec_apply, Read.val_main_v24_apply, Read.val_main_cst_5_apply]
  simp only [v25_at, Ideal.ofBits_def, Ideal.ofBits_zero_f32, zero_add]
  exact sum_class x1 k
    (fun b s => ∑ d, (zr b s d - Stats.centroid zr (cls x1) k d) * (zr b s d - Stats.centroid zr (cls x1) k d))
    (fun n => (Read.val_main_v23 x0 x1 : S131072.Idx → EReal) (ix1 n)) (fun n h => sq_at x0 x1 zr hx n k h)

include hx in
/-- The variances at an index. -/
theorem var_at (k : Fin 64) :
    (Read.val_main_v27 x0 x1 : S64.Idx → EReal) (ix1 k) = ((Stats.varTwo zr (cls x1) k : ℝ) : EReal) := by
  rw [Read.val_main_v27_apply, sqdist_at x0 x1 zr hx, safe_at, Ideal.hostDivf_def,
    Ideal.div_coe (Stats.safe_pos (cls x1) k).ne', ← EReal.coe_mul, Stats.varTwo_eq]
  congr 1
  ring

include hx in
/-- The first result: the centroids. -/
theorem centroid_eq : (Read.val_main_v13 x0 x1 : S64x256.Idx → EReal)
    = fun i : S64x256.Idx => ((Stats.centroid zr (cls x1) (i 0) (i 1) : ℝ) : EReal) := by
  funext i
  obtain ⟨k, d, rfl⟩ : ∃ (k : Fin 64) (d : Fin 256), i = ix2 k d := ⟨i 0, i 1, eq_ix2 i⟩
  exact centroid_at x0 x1 zr hx k d

include hx in
/-- The second result: the two-pass variances. -/
theorem var_eq : (Read.val_main_v27 x0 x1 : S64.Idx → EReal)
    = fun i : S64.Idx => ((Stats.varTwo zr (cls x1) (i 0) : ℝ) : EReal) := by
  funext i
  obtain ⟨k, rfl⟩ : ∃ k : Fin 64, i = ix1 k := ⟨i 0, eq_ix1 i⟩
  exact var_at x0 x1 zr hx k

/-- Every weakly fair execution of the idealized reference ends with the centroids and the two-pass variances, the
    arguments unchanged. -/
theorem run (m : (ℓ : Loc nD τ sig) → Buf (Elt Ideal) ℓ) (ρ : Dev nD → PrngReg)
    (zr : Dev nD → Fin 16 → Fin 8192 → Fin 256 → ℝ)
    (hz : ∀ c b s d, (m ((c.tc : Thread nD τ).loc main_arg0) : S16x8192x256.Idx → EReal) (ix3 b s d) = ((zr c b s d : ℝ) : EReal)) :
    θ_run defs (onTc (τ := τ) (main (F := Ideal))) ⟨m, fun _ => 0, ρ⟩ (fun r => ∀ c : Dev nD,
      r.2.mem ((c.tc : Thread nD τ).loc main_v13)
        = (fun i : S64x256.Idx => ((Stats.centroid (zr c) (cls (m ((c.tc : Thread nD τ).loc main_arg1))) (i 0) (i 1) : ℝ) : EReal))
      ∧ r.2.mem ((c.tc : Thread nD τ).loc main_v27)
        = (fun i : S64.Idx => ((Stats.varTwo (zr c) (cls (m ((c.tc : Thread nD τ).loc main_arg1))) (i 0) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.ReferenceIdeal.Value.run (F := Ideal) m ρ)
  obtain ⟨h1, h2, h3, h4⟩ := h c
  refine ⟨?_, ?_, h3, h4⟩
  · rw [h1, Read.val_main_v13_eq]
    exact centroid_eq _ _ (zr c) (hz c)
  · rw [h2, Read.val_main_v27_eq]
    exact var_eq _ _ (zr c) (hz c)

end Cert.ReferenceIdeal.RV

end
-- ==== Proof.lean ====
/-
  The kernel computes, for 16 × 8192 rows of 256 numbers with a class each, the 64 class centroids and within-class
  variances in ONE pass: it accumulates per class the rows' total, their number and the total of their squared norms
  (as products of a class-indicator matrix with the rows, a batch row at a time), and finishes with
  `max (Σ‖z‖² / n − ‖μ‖², 0)`; the reference scatters the totals and numbers, forms the centroids, gathers each row's
  centroid back and scatters the squared distances: `(Σ ‖z − μ‖²) / n`. With n the class's number clamped below by
  one, the two variances agree over the reals (`ClassStats.varOnePass_eq_varTwoPass`: expand the square, the total
  is n·μ; the clamp at zero is idle because a mean of squares is nonnegative; an empty class gives 0 on both sides),
  and a row whose class is outside 0 … 63 enters no class on either side.

  The inputs being finite (the precondition), both programs compute with real numbers throughout: the kernel's
  low-order limb `z − z` is zero, and every sum, quotient by a positive number and maximum of reals is a real. The
  kernel's run is read in `KRun` (over `KPieces`, `KPayload`, `KAccum`, `KArrays`), the reference's in `RValue`
  (over `RScatter`), both against the statistics of `Stats`; the three frames are the generated ones, and the two
  format round trips the idealization removed are the identity at exact arithmetic.
-/
import proofs.«409659_j28166395527342_3_alg».proof.Defs
import proofs.«409659_j28166395527342_3_alg».proof.Proof.Gen.Kernel
import proofs.«409659_j28166395527342_3_alg».proof.Proof.Gen.Kernel.Skeleton
import proofs.«409659_j28166395527342_3_alg».proof.Proof.Gen.Kernel.Launch
import proofs.«409659_j28166395527342_3_alg».proof.Proof.Gen.Kernel.Points
import proofs.«409659_j28166395527342_3_alg».proof.Proof.Gen.Kernel.Frame
import proofs.«409659_j28166395527342_3_alg».proof.Proof.Gen.KernelIdeal
import proofs.«409659_j28166395527342_3_alg».proof.Proof.Gen.KernelIdeal.Skeleton
import proofs.«409659_j28166395527342_3_alg».proof.Proof.Gen.KernelIdeal.Launch
import proofs.«409659_j28166395527342_3_alg».proof.Proof.Gen.KernelIdeal.Points
import proofs.«409659_j28166395527342_3_alg».proof.Proof.Gen.KernelIdeal.Frame
import proofs.«409659_j28166395527342_3_alg».proof.Proof.Gen.ReferenceIdeal
import proofs.«409659_j28166395527342_3_alg».proof.Proof.Gen.Pre_finite_inputs
import proofs.«409659_j28166395527342_3_alg».proof.Proof.Gen.ReferenceIdeal.Run
import proofs.«409659_j28166395527342_3_alg».proof.Proof.Gen.ReferenceIdeal.Read
import proofs.«409659_j28166395527342_3_alg».proof.Proof.Stats
import proofs.«409659_j28166395527342_3_alg».proof.Proof.Finite
import proofs.«409659_j28166395527342_3_alg».proof.Proof.KRun
import proofs.«409659_j28166395527342_3_alg».proof.Proof.RValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The two format round trips the idealization removed are the identity at exact arithmetic. -/
theorem preserves : Cert.preserves_Kernel_KernelIdeal :=
  ⟨IdealRules.truncf_extf.statement Cert.KernelIdeal.S8192x256 .f32 .bf16,
    IdealRules.truncf_extf.statement Cert.KernelIdeal.S8192x2 .f32 .bf16⟩

/-- From memories agreeing on the finite inputs both idealized programs end with the centroids, and with the
    within-class variances, which the one-pass and the two-pass expression give alike. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' hpre hagree
  have hfin : ∀ (c : Dev Cert.KernelIdeal.nD) (i : Cert.KernelIdeal.S16x8192x256.Idx), ∃ r : ℝ,
      ((m ((c.tc : Thread Cert.KernelIdeal.nD Cert.KernelIdeal.τ).loc Cert.KernelIdeal.main_arg0) :
        Cert.KernelIdeal.S16x8192x256.Idx → EReal) i) = (r : EReal) :=
    fun c i => @Cert.Finite.real_of_pre Cert.Pre_finite_inputs.Gen.facts _ _ (hpre c) i
  choose zf hzf using hfin
  let zr : Dev Cert.KernelIdeal.nD → Fin 16 → Fin 8192 → Fin 256 → ℝ := fun c b s d => zf c (ix3 b s d)
  have hz : ∀ c b s d, (m ((c.tc : Thread Cert.KernelIdeal.nD Cert.KernelIdeal.τ).loc Cert.KernelIdeal.main_arg0) :
      Cert.KernelIdeal.S16x8192x256.Idx → EReal) (ix3 b s d) = ((zr c b s d : ℝ) : EReal) :=
    fun c b s d => hzf c (ix3 b s d)
  have hz' : ∀ c b s d, (m' ((c.tc : Thread Cert.ReferenceIdeal.nD Cert.ReferenceIdeal.τ).loc Cert.ReferenceIdeal.main_arg0) :
      Cert.ReferenceIdeal.S16x8192x256.Idx → EReal) (ix3 b s d) = ((zr c b s d : ℝ) : EReal) := by
    intro c b s d
    rw [(hagree c).1]
    exact hz c b s d
  refine ⟨fun c => Cert.KernelIdeal.KV.centroidRes m zr c, fun c => Cert.KernelIdeal.KV.varRes m zr c,
    Cert.KernelIdeal.KV.run m ρ zr hz, ?_⟩
  refine (θ_run Cert.ReferenceIdeal.defs _ _).mono (fun _ h c => ⟨(h c).1.trans ?_, (h c).2.1.trans ?_, (h c).2.2⟩)
    (Cert.ReferenceIdeal.RV.run m' ρ' zr hz')
  · rw [(hagree c).2]
    rfl
  · rw [(hagree c).2]
    funext i
    exact congrArg (fun r : ℝ => (r : EReal))
      (Cert.Stats.varOne_eq_varTwo (zr c) (Cert.KernelIdeal.KV.cls m c) (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
